-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048x2048 .f32) (main_arg7 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048x2048 .f32) (main_arg5 : FVec F S2048 .f32) (main_arg6 : FVec F S2048x2048 .f32) (main_arg7 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S512x2048 : Shape := ⟨2, ![512, 2048]⟩
abbrev S1x2048 : Shape := ⟨2, ![1, 2048]⟩
abbrev S256x2048 : Shape := ⟨2, ![256, 2048]⟩

abbrev nBuf : Space → Nat
  | .hbm => 27
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S4096x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S2048x2048, .bf16⟩
  | .hbm, ⟨16, _⟩ => ⟨S1x2048, .f32⟩
  | .hbm, ⟨17, _⟩ => ⟨S2048x2048, .f32⟩
  | .hbm, ⟨18, _⟩ => ⟨S1x2048, .f32⟩
  | .hbm, ⟨19, _⟩ => ⟨S2048, .f32⟩
  | .hbm, ⟨20, _⟩ => ⟨S2048x2048, .f32⟩
  | .hbm, ⟨21, _⟩ => ⟨S2048x2048, .f32⟩
  | .hbm, ⟨22, _⟩ => ⟨S2048, .f32⟩
  | .hbm, ⟨23, _⟩ => ⟨S2048, .f32⟩
  | .hbm, ⟨24, _⟩ => ⟨S2048x2048, .bf16⟩
  | .hbm, ⟨25, _⟩ => ⟨S1x2048, .f32⟩
  | .hbm, ⟨26, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S2048x2048, .bf16⟩
  | .local _ .vmem, ⟨20, _⟩ => ⟨S1x2048, .f32⟩
  | .local _ .vmem, ⟨21, _⟩ => ⟨S2048x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S2048x2048, .bf16⟩
  | .local _ .vmem, ⟨26, _⟩ => ⟨S1x2048, .f32⟩
  | .local _ .vmem, ⟨27, _⟩ => ⟨S512x2048, .f32⟩
  | .local _ .vmem, ⟨28, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem5_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S1x2048_S1x2048 : S1x2048.ShapeCasts S1x2048
  broadcasts_S1x2048_S256x2048 : S1x2048.Broadcasts S256x2048
  reduces_S256x2048_S2048 : S256x2048.Reduces [0] S2048
  shapeCasts_S1x2048_S2048 : S1x2048.ShapeCasts S2048
  broadcasts_S1x2048_S512x2048 : S1x2048.Broadcasts S512x2048
  dot_S512x2048_S2048x2048_S512x2048_1_0_0_1_n_n_wf : DotDims.WF S512x2048 S2048x2048 S512x2048 [1] [0] [0] [1] [] []
  dot_S256x2048_S2048x2048_S256x2048_1_1_0_0_n_n_wf : DotDims.WF S256x2048 S2048x2048 S256x2048 [1] [1] [0] [0] [] []
  dot_S256x2048_S256x2048_S2048x2048_0_0_1_1_n_n_wf : DotDims.WF S256x2048 S256x2048 S2048x2048 [0] [0] [1] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .f32 = 32 ∨ (Rect.block (s := S4096x2048) S512x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x2048.size a
  hwx2_2 : ∀ i : grid2.Coords, EltTy.bits .f32 = 32 ∨ (Rect.block (s := S4096x2048) S512x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S4096x2048.size a
  hwx3_0 : ∀ i : grid3.Coords, EltTy.bits .f32 = 32 ∨ (Rect.block (s := S4096x2048) S256x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S4096x2048.size a
  hwx3_1 : ∀ i : grid3.Coords, EltTy.bits .f32 = 32 ∨ (Rect.block (s := S4096x2048) S256x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S2048x2048.size a
  hwx3_2 : ∀ i : grid3.Coords, EltTy.bits .bf16 = 32 ∨ (Rect.block (s := S2048x2048) S2048x2048.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x2048.size a
  hwx3_4 : ∀ i : grid3.Coords, EltTy.bits .f32 = 32 ∨ (Rect.block (s := S2048x2048) S2048x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2048.size a ≤ S1x2048.size a
  hwx3_5 : ∀ i : grid3.Coords, EltTy.bits .f32 = 32 ∨ (Rect.block (s := S1x2048) S1x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S4096x2048.size a
  hwx4_0 : ∀ i : grid4.Coords, EltTy.bits .f32 = 32 ∨ (Rect.block (s := S4096x2048) S512x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S4096x2048.size a
  hwx4_3 : ∀ i : grid4.Coords, EltTy.bits .f32 = 32 ∨ (Rect.block (s := S4096x2048) S512x2048.size (cc4_transform_3 i) (hinb4_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S256x2048_S2048x2048_0_0_1_1_n_n : DotDims S256x2048 S256x2048 S2048x2048 where
  lhsContracting := [0]
  rhsContracting := [0]
  lhsNonContracting := [1]
  rhsNonContracting := [1]
  lhsBatch := []
  rhsBatch := []
  wf := dot_S256x2048_S256x2048_S2048x2048_0_0_1_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2048x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9_0) S2048x2048.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9_1) S1x2048.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v6) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x4096, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x2048, .f32⟩
  | .hbm, ⟨29, _⟩ => ⟨S2048x2048, .f32⟩
  | .hbm, ⟨30, _⟩ => ⟨S2048, .f32⟩
  | .hbm, ⟨31, _⟩ => ⟨S2048, .f32⟩
  | .hbm, ⟨32, _⟩ => ⟨S2048x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S4096x2048_S2048x4096_1_0 : S4096x2048.Transposes [1, 0] S2048x4096
  bcast_S_S2048x2048 : S_.BroadcastsInDim S2048x2048 (![] : Fin 0 → Fin S2048x2048.rank)
  reducesTo_S4096x2048_S2048_d0 : S4096x2048.ReducesTo [0] S2048
  h_S_ : 0 < S_.numel
  bcast_S_S2048 : S_.BroadcastsInDim S2048 (![] : Fin 0 → Fin S2048.rank)
  dot_S4096x2048_S2048x2048_S4096x2048_1_0_0_1_n_n_wf : DotDims.WF S4096x2048 S2048x2048 S4096x2048 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.Spec.lean ====
/-
  One inner step of test-time training, as functions of the argument arrays read entry by entry on the extended reals.

  From the tokens `src` (4096 × 2048) three views are projected, `train = src · θk`, `label = src · θv`,
  `test = src · θq`.  The linear model `(W, b)` predicts `train · Wᵀ + b`; its error against the target
  `label − train` is `err`.  The gradient of the mean squared error is `gW = (errᵀ · train) · c` and
  `gb = (column sums of err) · c` with `c = 2 / (4096 · 2048) = 2⁻²²`.  One step of gradient descent with entrywise
  learning rates gives `W' = W − lr_w ∘ gW`, `b' = b − lr_b ∘ gb`, and the result is `test · W'ᵀ + b' + test`.

  The bias and its gradient are carried as 1 × 2048 rows, the form both programs hand them on in.
-/
import Idealize.ShloMosaic.Lib.ValueIdx
import Idealize.ShloMosaic.PureOps.Ideal.Laws

noncomputable section

open scoped BigOperators

namespace TTT

open Idealize.ShloMosaic Idealize.ShloMosaic.ValueIdx

/-- tokens × features -/
abbrev SX : Shape := ⟨2, ![4096, 2048]⟩
/-- features × features -/
abbrev SM : Shape := ⟨2, ![2048, 2048]⟩
/-- features -/
abbrev SV : Shape := ⟨1, ![2048]⟩
/-- a single row of features -/
abbrev SR : Shape := ⟨2, ![1, 2048]⟩

/-- The mean's factor `2 / (4096 · 2048) = 2⁻²²`, an exact binary value. -/
abbrev coef : EReal := Ideal.ofBits .f32 0x34800000#32

/-- `a · θ` at entry (r, j): the sum over k of `a (r, k) · θ (k, j)`. -/
def proj (a : SX.Idx → EReal) (θ : SM.Idx → EReal) : SX.Idx → EReal :=
  fun i => ∑ k : Fin 2048, a (ix2 (i 0) k) * θ (ix2 k (i 1))

/-- A vector of features laid out as one row. -/
def asRow (b : SV.Idx → EReal) : SR.Idx → EReal := fun i => b (ix1 (i 1))

/-- The prediction error at token r, feature j: `(train · Wᵀ + b) (r, j) − (label − train) (r, j)`. -/
def err (train label : SX.Idx → EReal) (W : SM.Idx → EReal) (b2 : SR.Idx → EReal) (r : Fin 4096) (j : Fin 2048) : EReal :=
  ((∑ k : Fin 2048, train (ix2 r k) * W (ix2 j k)) + b2 (ix2 0 j)) - (label (ix2 r j) - train (ix2 r j))

/-- The weight gradient at (i, j): the sum over all tokens of `err (r, i) · train (r, j)`, times the mean's factor. -/
def gradW (train label : SX.Idx → EReal) (W : SM.Idx → EReal) (b2 : SR.Idx → EReal) : SM.Idx → EReal :=
  fun i => (∑ r : Fin 4096, err train label W b2 r (i 0) * train (ix2 r (i 1))) * coef

/-- The bias gradient at feature j, as a row: the sum over all tokens of `err (r, j)`, times the mean's factor. -/
def gradB (train label : SX.Idx → EReal) (W : SM.Idx → EReal) (b2 : SR.Idx → EReal) : SR.Idx → EReal :=
  fun i => (∑ r : Fin 4096, err train label W b2 r (i 1)) * coef

/-- The updated weights `W − lr_w ∘ gW`. -/
def stepW (W lrw gW : SM.Idx → EReal) : SM.Idx → EReal := fun i => W i - lrw i * gW i

/-- The updated bias `b − lr_b ∘ gb`, as a row. -/
def stepB (b lrb : SV.Idx → EReal) (gb2 : SR.Idx → EReal) : SR.Idx → EReal :=
  fun i => b (ix1 (i 1)) - lrb (ix1 (i 1)) * gb2 (ix2 0 (i 1))

/-- The query `test · Wnᵀ + bn + test` at entry (r, j). -/
def query (test : SX.Idx → EReal) (Wn : SM.Idx → EReal) (bn2 : SR.Idx → EReal) : SX.Idx → EReal :=
  fun i => (∑ k : Fin 2048, test (ix2 (i 0) k) * Wn (ix2 (i 1) k)) + bn2 (ix2 0 (i 1)) + test (ix2 (i 0) (i 1))

/-- THE RESULT of one step, as a function of the eight argument arrays. -/
def G (src : SX.Idx → EReal) (θk θq θv W : SM.Idx → EReal) (b : SV.Idx → EReal) (lrw : SM.Idx → EReal) (lrb : SV.Idx → EReal) :
    SX.Idx → EReal :=
  query (proj src θq)
    (stepW W lrw (gradW (proj src θk) (proj src θv) W (asRow b)))
    (stepB b lrb (gradB (proj src θk) (proj src θv) W (asRow b)))

end TTT

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Proj0.lean ====
/-
  The projection call number 0: from the contents `V` its region is entered with, the result array ends holding
  `tokens · θ` entry by entry — each grid point writes the 512 rows of its block, and the eight blocks tile the array.
-/
import proofs.«152635_j12223476924503_1_alg».proof.Proof.Gen.KernelIdeal.Frame
import proofs.«152635_j12223476924503_1_alg».proof.Proof.Spec
import proofs.«152635_j12223476924503_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx
open scoped BigOperators

variable (V : (c : Dev nD) → (b : Ref sig .tc) → Buf (Elt Ideal) ((c : Thread nD τ).loc b))

/-! ## Where the blocks sit

  Point `t` of the grid of eight works on rows `512 t … 512 t + 511` of the tokens and of the result, all 2048 columns
  of them, and on the whole parameter matrix. -/

/-- The origin of a block's own coordinates. -/
theorem proj0_origin : (![0, 0] : Fin 2 → Nat) = fun _ => 0 := funext fun a => by fin_cases a <;> rfl

/-- The block indices over the grid: the token block and the result block are block `t` of rows, the parameter matrix is
    one block. -/
theorem proj0_block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has eight points. -/
theorem proj0_point_lt (t : Fin cfg0.N) : t.val < 8 := lt_of_lt_of_eq t.isLt N_0

/-! ## The body's arithmetic at an entry -/

/-- The body's one product, read at row `p`, column `q` of the block: the row of the token block against the column of
    the parameter matrix. -/
theorem proj0_payload_apply (x0 : FVec Ideal S512x2048 .bf16) (x1 : FVec Ideal S2048x2048 .bf16) (p : Fin 512) (q : Fin 2048) :
    (k0_pay1 (F := Ideal) x0 x1 (ix2 p q) : EReal) = ∑ i : Fin 2048, (x0 (ix2 p i) : EReal) * (x1 (ix2 i q) : EReal) := by
  unfold k0_pay1
  simp only [shapeCast_self]
  exact PlainDot.matmul_zero_apply ⟨rfl, rfl, rfl, rfl, rfl, rfl⟩ none x0 x1 p q

/-! ## The blocks read at explicit coordinates -/

/-- Row `p` of point `t`'s token block is row `512 t + p` of the tokens. -/
theorem proj0_tokens_block (c : Dev nD) (t : Fin cfg0.N) (p : Fin 512) (i : Fin 2048) (h : t.val * 512 + p.val < 4096) :
    iblk0 V c 0 t (ix2 p i) = V c main_v0 (ix2 ⟨t.val * 512 + p.val, h⟩ i) := by
  obtain ⟨e0, e1, -, -, -, -⟩ := proj0_block_index t
  show V c main_v0 (((cfg0.win 0).blk t).view.emb (ix2 p i)) = _
  refine congrArg (V c main_v0) (funext fun a => Fin.ext ?_)
  match a with
  | ⟨0, _⟩ => show win0_0.index t (0 : Fin 2) * 512 + 1 * p.val = t.val * 512 + p.val; omega
  | ⟨1, _⟩ => show win0_0.index t (1 : Fin 2) * 2048 + 1 * i.val = i.val; omega

/-- Every point's parameter block is the whole parameter matrix. -/
theorem proj0_param_block (c : Dev nD) (t : Fin cfg0.N) (i : Fin 2048) (q : Fin 2048) :
    iblk0 V c 1 t (ix2 i q) = V c main_v1 (ix2 i q) := by
  obtain ⟨-, -, e2, e3, -, -⟩ := proj0_block_index t
  show V c main_v1 (((cfg0.win 1).blk t).view.emb (ix2 i q)) = _
  refine congrArg (V c main_v1) (funext fun a => Fin.ext ?_)
  match a with
  | ⟨0, _⟩ => show win0_1.index t (0 : Fin 2) * 2048 + 1 * i.val = i.val; omega
  | ⟨1, _⟩ => show win0_1.index t (1 : Fin 2) * 2048 + 1 * q.val = q.val; omega

/-- Entry (p, q) of point `t`'s result block is entry (512 t + p, q) of the result array. -/
theorem proj0_result_block_emb (t : Fin cfg0.N) (p : Fin 512) (q : Fin 2048) (h : t.val * 512 + p.val < 4096) :
    ((cfg0.win 2).blk t).view.emb (ix2 p q) = (ix2 ⟨t.val * 512 + p.val, h⟩ q : TTT.SX.Idx) := by
  obtain ⟨-, -, -, -, e4, e5⟩ := proj0_block_index t
  refine funext fun a => Fin.ext ?_
  match a with
  | ⟨0, _⟩ => show win0_2.index t (0 : Fin 2) * 512 + 1 * p.val = t.val * 512 + p.val; omega
  | ⟨1, _⟩ => show win0_2.index t (1 : Fin 2) * 2048 + 1 * q.val = q.val; omega

/-! ## What a point writes back -/

/-- Point `t` writes back block `t` of `tokens · θ`. -/
theorem proj0_flushed (c : Dev nD) (t : Fin cfg0.N) :
    (dat0 V c).flushed 2 t = ((cfg0.win 2).blk t).view.read (Elt Ideal) (TTT.proj (V c main_v0) (V c main_v1)) := by
  show (cfg0.win 2).cut (grid0.coords t) ((dat0 V c).after 2 t) = _
  rw [after0_2]
  unfold out0_2
  rw [View.canon_unit_zero proj0_origin]
  simp only [View.ld_unit_zero (S := S512x2048) proj0_origin, View.ld_unit_zero (S := S2048x2048) proj0_origin]
  funext j
  obtain ⟨p, q, rfl⟩ : ∃ (p : Fin 512) (q : Fin 2048), j = ix2 p q := ⟨j 0, j 1, eq_ix2 j⟩
  have h : t.val * 512 + p.val < 4096 := by have := proj0_point_lt t; omega
  show k0_pay1 (iblk0 V c 0 t) (iblk0 V c 1 t) (ix2 p q)
    = TTT.proj (V c main_v0) (V c main_v1) (((cfg0.win 2).blk t).view.emb (ix2 p q))
  rw [proj0_result_block_emb t p q h]
  refine (proj0_payload_apply _ _ p q).trans (Finset.sum_congr rfl fun i _ => ?_)
  rw [proj0_tokens_block V c t p i h, proj0_param_block V c t i q]

/-! ## The blocks tile the array -/

/-- An entry of the result array is in point `t`'s block iff each coordinate is in the block's range on its axis. -/
theorem proj0_mem_result_block (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v4).slice (win0_2.rect t)).set ↔ _
  rw [View.set_slice_whole, Rect.mem_set_unit]
  exact Iff.rfl

/-- Row `r` of the result is written back by point `r / 512`. -/
theorem proj0_cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ : ∃ t : Fin cfg0.N, t.val = (i 0).val / 512 :=
    ⟨⟨(i 0).val / 512, lt_of_lt_of_eq (by omega) N_0.symm⟩, rfl⟩
  obtain ⟨-, -, -, -, e4, e5⟩ := proj0_block_index t
  refine ⟨t, flush0_2 t, ?_⟩
  rw [proj0_mem_result_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-! ## The array after the region -/

/-- After the region the result array is `TTT.proj` of the tokens and the parameter matrix as the region found them. -/
theorem proj0_final (c : Dev nD) :
    (dat0 V c).arrAt 2 cfg0.N = TTT.proj (V c main_v0) (V c main_v1) :=
  (dat0 V c).arrAt_eq_of_cover 2 _ (fun t _ => proj0_flushed V c t) proj0_cover

end Cert.KernelIdeal.Val

end
-- ==== Proof.Proj1.lean ====
/-
  The projection call number 1: from the contents `V` its region is entered with, the result array ends holding
  `tokens · θ` entry by entry — each grid point writes the 512 rows of its block, and the eight blocks tile the array.
-/
import proofs.«152635_j12223476924503_1_alg».proof.Proof.Gen.KernelIdeal.Frame
import proofs.«152635_j12223476924503_1_alg».proof.Proof.Spec
import proofs.«152635_j12223476924503_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx
open scoped BigOperators

variable (V : (c : Dev nD) → (b : Ref sig .tc) → Buf (Elt Ideal) ((c : Thread nD τ).loc b))

/-! ## Where the blocks sit

  Point `t` of the grid of eight works on rows `512 t … 512 t + 511` of the tokens and of the result, all 2048 columns
  of them, and on the whole parameter matrix. -/

/-- The origin of a block's own coordinates. -/
theorem proj1_origin : (![0, 0] : Fin 2 → Nat) = fun _ => 0 := funext fun a => by fin_cases a <;> rfl

/-- The block indices over the grid: the token block and the result block are block `t` of rows, the parameter matrix is
    one block. -/
theorem proj1_block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has eight points. -/
theorem proj1_point_lt (t : Fin cfg1.N) : t.val < 8 := lt_of_lt_of_eq t.isLt N_1

/-! ## The body's arithmetic at an entry -/

/-- The body's one product, read at row `p`, column `q` of the block: the row of the token block against the column of
    the parameter matrix. -/
theorem proj1_payload_apply (x0 : FVec Ideal S512x2048 .bf16) (x1 : FVec Ideal S2048x2048 .bf16) (p : Fin 512) (q : Fin 2048) :
    (k1_pay1 (F := Ideal) x0 x1 (ix2 p q) : EReal) = ∑ i : Fin 2048, (x0 (ix2 p i) : EReal) * (x1 (ix2 i q) : EReal) := by
  unfold k1_pay1
  simp only [shapeCast_self]
  exact PlainDot.matmul_zero_apply ⟨rfl, rfl, rfl, rfl, rfl, rfl⟩ none x0 x1 p q

/-! ## The blocks read at explicit coordinates -/

/-- Row `p` of point `t`'s token block is row `512 t + p` of the tokens. -/
theorem proj1_tokens_block (c : Dev nD) (t : Fin cfg1.N) (p : Fin 512) (i : Fin 2048) (h : t.val * 512 + p.val < 4096) :
    iblk1 V c 0 t (ix2 p i) = V c main_v0 (ix2 ⟨t.val * 512 + p.val, h⟩ i) := by
  obtain ⟨e0, e1, -, -, -, -⟩ := proj1_block_index t
  show V c main_v0 (((cfg1.win 0).blk t).view.emb (ix2 p i)) = _
  refine congrArg (V c main_v0) (funext fun a => Fin.ext ?_)
  match a with
  | ⟨0, _⟩ => show win1_0.index t (0 : Fin 2) * 512 + 1 * p.val = t.val * 512 + p.val; omega
  | ⟨1, _⟩ => show win1_0.index t (1 : Fin 2) * 2048 + 1 * i.val = i.val; omega

/-- Every point's parameter block is the whole parameter matrix. -/
theorem proj1_param_block (c : Dev nD) (t : Fin cfg1.N) (i : Fin 2048) (q : Fin 2048) :
    iblk1 V c 1 t (ix2 i q) = V c main_v3 (ix2 i q) := by
  obtain ⟨-, -, e2, e3, -, -⟩ := proj1_block_index t
  show V c main_v3 (((cfg1.win 1).blk t).view.emb (ix2 i q)) = _
  refine congrArg (V c main_v3) (funext fun a => Fin.ext ?_)
  match a with
  | ⟨0, _⟩ => show win1_1.index t (0 : Fin 2) * 2048 + 1 * i.val = i.val; omega
  | ⟨1, _⟩ => show win1_1.index t (1 : Fin 2) * 2048 + 1 * q.val = q.val; omega

/-- Entry (p, q) of point `t`'s result block is entry (512 t + p, q) of the result array. -/
theorem proj1_result_block_emb (t : Fin cfg1.N) (p : Fin 512) (q : Fin 2048) (h : t.val * 512 + p.val < 4096) :
    ((cfg1.win 2).blk t).view.emb (ix2 p q) = (ix2 ⟨t.val * 512 + p.val, h⟩ q : TTT.SX.Idx) := by
  obtain ⟨-, -, -, -, e4, e5⟩ := proj1_block_index t
  refine funext fun a => Fin.ext ?_
  match a with
  | ⟨0, _⟩ => show win1_2.index t (0 : Fin 2) * 512 + 1 * p.val = t.val * 512 + p.val; omega
  | ⟨1, _⟩ => show win1_2.index t (1 : Fin 2) * 2048 + 1 * q.val = q.val; omega

/-! ## What a point writes back -/

/-- Point `t` writes back block `t` of `tokens · θ`. -/
theorem proj1_flushed (c : Dev nD) (t : Fin cfg1.N) :
    (dat1 V c).flushed 2 t = ((cfg1.win 2).blk t).view.read (Elt Ideal) (TTT.proj (V c main_v0) (V c main_v3)) := by
  show (cfg1.win 2).cut (grid1.coords t) ((dat1 V c).after 2 t) = _
  rw [after1_2]
  unfold out1_2
  rw [View.canon_unit_zero proj1_origin]
  simp only [View.ld_unit_zero (S := S512x2048) proj1_origin, View.ld_unit_zero (S := S2048x2048) proj1_origin]
  funext j
  obtain ⟨p, q, rfl⟩ : ∃ (p : Fin 512) (q : Fin 2048), j = ix2 p q := ⟨j 0, j 1, eq_ix2 j⟩
  have h : t.val * 512 + p.val < 4096 := by have := proj1_point_lt t; omega
  show k1_pay1 (iblk1 V c 0 t) (iblk1 V c 1 t) (ix2 p q)
    = TTT.proj (V c main_v0) (V c main_v3) (((cfg1.win 2).blk t).view.emb (ix2 p q))
  rw [proj1_result_block_emb t p q h]
  refine (proj1_payload_apply _ _ p q).trans (Finset.sum_congr rfl fun i _ => ?_)
  rw [proj1_tokens_block V c t p i h, proj1_param_block V c t i q]

/-! ## The blocks tile the array -/

/-- An entry of the result array is in point `t`'s block iff each coordinate is in the block's range on its axis. -/
theorem proj1_mem_result_block (t : Fin cfg1.N) (i : S4096x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v5).slice (win1_2.rect t)).set ↔ _
  rw [View.set_slice_whole, Rect.mem_set_unit]
  exact Iff.rfl

/-- Row `r` of the result is written back by point `r / 512`. -/
theorem proj1_cover (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, ht⟩ : ∃ t : Fin cfg1.N, t.val = (i 0).val / 512 :=
    ⟨⟨(i 0).val / 512, lt_of_lt_of_eq (by omega) N_1.symm⟩, rfl⟩
  obtain ⟨-, -, -, -, e4, e5⟩ := proj1_block_index t
  refine ⟨t, flush1_2 t, ?_⟩
  rw [proj1_mem_result_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-! ## The array after the region -/

/-- After the region the result array is `TTT.proj` of the tokens and the parameter matrix as the region found them. -/
theorem proj1_final (c : Dev nD) :
    (dat1 V c).arrAt 2 cfg1.N = TTT.proj (V c main_v0) (V c main_v3) :=
  (dat1 V c).arrAt_eq_of_cover 2 _ (fun t _ => proj1_flushed V c t) proj1_cover

end Cert.KernelIdeal.Val

end
-- ==== Proof.Proj2.lean ====
/-
  The projection call number 2: from the contents `V` its region is entered with, the result array ends holding
  `tokens · θ` entry by entry — each grid point writes the 512 rows of its block, and the eight blocks tile the array.
-/
import proofs.«152635_j12223476924503_1_alg».proof.Proof.Gen.KernelIdeal.Frame
import proofs.«152635_j12223476924503_1_alg».proof.Proof.Spec
import proofs.«152635_j12223476924503_1_alg».proof.Proof.LibPlainDot
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx
open scoped BigOperators

variable (V : (c : Dev nD) → (b : Ref sig .tc) → Buf (Elt Ideal) ((c : Thread nD τ).loc b))

/-! ## Where the blocks sit

  Point `t` of the grid of eight works on rows `512 t … 512 t + 511` of the tokens and of the result, all 2048 columns
  of them, and on the whole parameter matrix. -/

/-- The origin of a block's own coordinates. -/
theorem proj2_origin : (![0, 0] : Fin 2 → Nat) = fun _ => 0 := funext fun a => by fin_cases a <;> rfl

/-- The block indices over the grid: the token block and the result block are block `t` of rows, the parameter matrix is
    one block. -/
theorem proj2_block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has eight points. -/
theorem proj2_point_lt (t : Fin cfg2.N) : t.val < 8 := lt_of_lt_of_eq t.isLt N_2

/-! ## The body's arithmetic at an entry -/

/-- The body's one product, read at row `p`, column `q` of the block: the row of the token block against the column of
    the parameter matrix. -/
theorem proj2_payload_apply (x0 : FVec Ideal S512x2048 .bf16) (x1 : FVec Ideal S2048x2048 .bf16) (p : Fin 512) (q : Fin 2048) :
    (k2_pay1 (F := Ideal) x0 x1 (ix2 p q) : EReal) = ∑ i : Fin 2048, (x0 (ix2 p i) : EReal) * (x1 (ix2 i q) : EReal) := by
  unfold k2_pay1
  simp only [shapeCast_self]
  exact PlainDot.matmul_zero_apply ⟨rfl, rfl, rfl, rfl, rfl, rfl⟩ none x0 x1 p q

/-! ## The blocks read at explicit coordinates -/

/-- Row `p` of point `t`'s token block is row `512 t + p` of the tokens. -/
theorem proj2_tokens_block (c : Dev nD) (t : Fin cfg2.N) (p : Fin 512) (i : Fin 2048) (h : t.val * 512 + p.val < 4096) :
    iblk2 V c 0 t (ix2 p i) = V c main_v0 (ix2 ⟨t.val * 512 + p.val, h⟩ i) := by
  obtain ⟨e0, e1, -, -, -, -⟩ := proj2_block_index t
  show V c main_v0 (((cfg2.win 0).blk t).view.emb (ix2 p i)) = _
  refine congrArg (V c main_v0) (funext fun a => Fin.ext ?_)
  match a with
  | ⟨0, _⟩ => show win2_0.index t (0 : Fin 2) * 512 + 1 * p.val = t.val * 512 + p.val; omega
  | ⟨1, _⟩ => show win2_0.index t (1 : Fin 2) * 2048 + 1 * i.val = i.val; omega

/-- Every point's parameter block is the whole parameter matrix. -/
theorem proj2_param_block (c : Dev nD) (t : Fin cfg2.N) (i : Fin 2048) (q : Fin 2048) :
    iblk2 V c 1 t (ix2 i q) = V c main_v2 (ix2 i q) := by
  obtain ⟨-, -, e2, e3, -, -⟩ := proj2_block_index t
  show V c main_v2 (((cfg2.win 1).blk t).view.emb (ix2 i q)) = _
  refine congrArg (V c main_v2) (funext fun a => Fin.ext ?_)
  match a with
  | ⟨0, _⟩ => show win2_1.index t (0 : Fin 2) * 2048 + 1 * i.val = i.val; omega
  | ⟨1, _⟩ => show win2_1.index t (1 : Fin 2) * 2048 + 1 * q.val = q.val; omega

/-- Entry (p, q) of point `t`'s result block is entry (512 t + p, q) of the result array. -/
theorem proj2_result_block_emb (t : Fin cfg2.N) (p : Fin 512) (q : Fin 2048) (h : t.val * 512 + p.val < 4096) :
    ((cfg2.win 2).blk t).view.emb (ix2 p q) = (ix2 ⟨t.val * 512 + p.val, h⟩ q : TTT.SX.Idx) := by
  obtain ⟨-, -, -, -, e4, e5⟩ := proj2_block_index t
  refine funext fun a => Fin.ext ?_
  match a with
  | ⟨0, _⟩ => show win2_2.index t (0 : Fin 2) * 512 + 1 * p.val = t.val * 512 + p.val; omega
  | ⟨1, _⟩ => show win2_2.index t (1 : Fin 2) * 2048 + 1 * q.val = q.val; omega

/-! ## What a point writes back -/

/-- Point `t` writes back block `t` of `tokens · θ`. -/
theorem proj2_flushed (c : Dev nD) (t : Fin cfg2.N) :
    (dat2 V c).flushed 2 t = ((cfg2.win 2).blk t).view.read (Elt Ideal) (TTT.proj (V c main_v0) (V c main_v2)) := by
  show (cfg2.win 2).cut (grid2.coords t) ((dat2 V c).after 2 t) = _
  rw [after2_2]
  unfold out2_2
  rw [View.canon_unit_zero proj2_origin]
  simp only [View.ld_unit_zero (S := S512x2048) proj2_origin, View.ld_unit_zero (S := S2048x2048) proj2_origin]
  funext j
  obtain ⟨p, q, rfl⟩ : ∃ (p : Fin 512) (q : Fin 2048), j = ix2 p q := ⟨j 0, j 1, eq_ix2 j⟩
  have h : t.val * 512 + p.val < 4096 := by have := proj2_point_lt t; omega
  show k2_pay1 (iblk2 V c 0 t) (iblk2 V c 1 t) (ix2 p q)
    = TTT.proj (V c main_v0) (V c main_v2) (((cfg2.win 2).blk t).view.emb (ix2 p q))
  rw [proj2_result_block_emb t p q h]
  refine (proj2_payload_apply _ _ p q).trans (Finset.sum_congr rfl fun i _ => ?_)
  rw [proj2_tokens_block V c t p i h, proj2_param_block V c t i q]

/-! ## The blocks tile the array -/

/-- An entry of the result array is in point `t`'s block iff each coordinate is in the block's range on its axis. -/
theorem proj2_mem_result_block (t : Fin cfg2.N) (i : S4096x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v6).slice (win2_2.rect t)).set ↔ _
  rw [View.set_slice_whole, Rect.mem_set_unit]
  exact Iff.rfl

/-- Row `r` of the result is written back by point `r / 512`. -/
theorem proj2_cover (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ : ∃ t : Fin cfg2.N, t.val = (i 0).val / 512 :=
    ⟨⟨(i 0).val / 512, lt_of_lt_of_eq (by omega) N_2.symm⟩, rfl⟩
  obtain ⟨-, -, -, -, e4, e5⟩ := proj2_block_index t
  refine ⟨t, flush2_2 t, ?_⟩
  rw [proj2_mem_result_block]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 2048 ≤ (i 1).val ∧ (i 1).val < win2_2.index t (1 : Fin 2) * 2048 + 2048; omega

/-! ## The array after the region -/

/-- After the region the result array is `TTT.proj` of the tokens and the parameter matrix as the region found them. -/
theorem proj2_final (c : Dev nD) :
    (dat2 V c).arrAt 2 cfg2.N = TTT.proj (V c main_v0) (V c main_v2) :=
  (dat2 V c).arrAt_eq_of_cover 2 _ (fun t _ => proj2_flushed V c t) proj2_cover

end Cert.KernelIdeal.Val

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.SpecAlgebra.lean ====
/-
  A sum over 4096 consecutive tokens is the sum, over 16 consecutive blocks, of the sums over each block's 256 tokens.
-/
import proofs.«152635_j12223476924503_1_alg».proof.Proof.Spec
import Mathlib.Logic.Equiv.Fin.Basic
import Mathlib.Data.Fintype.BigOperators

noncomputable section

open scoped BigOperators

namespace TTT

/-- Token `256 · s + r` of block `s`. -/
def tok (s : Fin 16) (r : Fin 256) : Fin 4096 := ⟨256 * s.val + r.val, by have := s.isLt; have := r.isLt; omega⟩

/-- Blocks and offsets as one index: the pair `(s, r)` is the token `256 · s + r`, and every token is such a pair
    exactly once (division with remainder by 256). -/
def blockEquiv : Fin 16 × Fin 256 ≃ Fin 4096 := (finProdFinEquiv : Fin 16 × Fin 256 ≃ Fin (16 * 256))

theorem blockEquiv_apply (s : Fin 16) (r : Fin 256) : blockEquiv (s, r) = tok s r :=
  Fin.ext (Nat.add_comm _ _)

/-- Regrouping a sum over all tokens by blocks of 256 (commutativity and associativity of the sum only). -/
theorem sum_blocks (g : Fin 4096 → EReal) : ∑ s : Fin 16, ∑ r : Fin 256, g (tok s r) = ∑ R : Fin 4096, g R := by
  rw [← Fintype.sum_prod_type' (f := fun s r => g (tok s r))]
  exact Fintype.sum_equiv blockEquiv _ _ fun x => congrArg g (blockEquiv_apply x.1 x.2).symm

end TTT

end
-- ==== Proof.Grad.lean ====
/-
  The gradient call, weight output: over sixteen grid points the output block accumulates, block of 256 tokens after
  block, the products `errᵀ · train`; the first point starts from zero, the last one multiplies by the mean's factor, and
  only the last point's contents are written back to the array.

  The road: what each of the three kinds of point leaves in the output block, as the block's arithmetic of the input
  blocks; that arithmetic read entry by entry (an `A · Bᵀ` inside an `Aᵀ · B`); each input block as rows of its array;
  the running sum by induction on the point; the one write-back; and the regrouping of sixteen blocks of 256 tokens into
  the sum over all 4096.
-/
import proofs.«152635_j12223476924503_1_alg».proof.Proof.Gen.KernelIdeal.Frame
import proofs.«152635_j12223476924503_1_alg».proof.Proof.Spec
import proofs.«152635_j12223476924503_1_alg».proof.Proof.LibPlainDot
import proofs.«152635_j12223476924503_1_alg».proof.Proof.LibDotForms
import proofs.«152635_j12223476924503_1_alg».proof.Proof.SpecAlgebra
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

namespace GradW

open Idealize.ShloMosaic.ValueIdx

/-! ### What each kind of point leaves in the output block -/

section Pieces

variable {F : FTy → Type} [FloatOps F]

/-- The origin of a rank-2 block. -/
theorem hz : (![0, 0] : Fin 2 → Nat) = fun _ => 0 := funext fun a => by fin_cases a <;> rfl

/-- A middle point leaves the running contents plus the block's product. -/
theorem piece_B (c : Dev nD) (i : grid3.Coords) (a1 : Memref sig .tc .vmem S256x2048 .f32) (h1 : a1.IsWhole)
    (a2 : Memref sig .tc .vmem S256x2048 .f32) (h2 : a2.IsWhole) (a3 : Memref sig .tc .vmem S2048x2048 .bf16) (h3 : a3.IsWhole)
    (a4 : Memref sig .tc .vmem S1x2048 .f32) (h4 : a4.IsWhole) (a5 : Memref sig .tc .vmem S2048x2048 .f32) (h5 : a5.IsWhole)
    (a6 : Memref sig .tc .vmem S1x2048 .f32) (h6 : a6.IsWhole) (hc0 : ¬cond3_0 i) (hc1 : ¬cond3_1 i)
    (x0 x1 : Vec F S256x2048 .f32) (x2 : Vec F S2048x2048 .bf16) (x3 : Vec F S1x2048 .f32) (xo4 : Vec F S2048x2048 .f32) (xo5 : Vec F S1x2048 .f32) :
    out3_B_4 c i a1 h1 a2 h2 a3 h3 a4 h4 a5 h5 a6 h6 hc0 hc1 x0 x1 x2 x3 xo4 xo5 = k3_pay6 x0 x1 x2 x3 xo4 := by
  unfold out3_B_4
  rw [View.read_writes_eq_canon _ _ _ (cover3_B_4 c i a1 h1 a2 h2 a3 h3 a4 h4 a5 h5 a6 h6 hc0 hc1 x0 x1 x2 x3 xo4 xo5)]
  unfold kernelRun3_B
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2048x2048) hz, View.ld_unit_zero (S := S1x2048) hz]

/-- The first point stores the zero block, reads it back, and leaves zero plus the block's product. -/
theorem piece_A (c : Dev nD) (i : grid3.Coords) (a1 : Memref sig .tc .vmem S256x2048 .f32) (h1 : a1.IsWhole)
    (a2 : Memref sig .tc .vmem S256x2048 .f32) (h2 : a2.IsWhole) (a3 : Memref sig .tc .vmem S2048x2048 .bf16) (h3 : a3.IsWhole)
    (a4 : Memref sig .tc .vmem S1x2048 .f32) (h4 : a4.IsWhole) (a5 : Memref sig .tc .vmem S2048x2048 .f32) (h5 : a5.IsWhole)
    (a6 : Memref sig .tc .vmem S1x2048 .f32) (h6 : a6.IsWhole) (hc0 : cond3_0 i) (hc1 : ¬cond3_1 i)
    (x0 x1 : Vec F S256x2048 .f32) (x2 : Vec F S2048x2048 .bf16) (x3 : Vec F S1x2048 .f32) :
    out3_A_4 c i a1 h1 a2 h2 a3 h3 a4 h4 a5 h5 a6 h6 hc0 hc1 x0 x1 x2 x3 = k3_pay6 x0 x1 x2 x3 (k3_pay1 (F := F)) := by
  unfold out3_A_4
  rw [View.read_writes_eq_canon _ _ _ (cover3_A_4 c i a1 h1 a2 h2 a3 h3 a4 h4 a5 h5 a6 h6 hc0 hc1 x0 x1 x2 x3)]
  unfold kernelRun3_A
  dsimp only
  sl_unfold_words
  rw [View.canon_cons_unit_zero (S := S2048x2048) hz, View.readCov_unit_zero (S := S2048x2048) _ hz]
  simp only [View.readAt_eq_ld, h1.read_unread, h2.read_unread, h3.read_unread, h4.read_unread,
    View.ld_unit_zero (S := S256x2048) hz, View.ld_unit_zero (S := S2048x2048) hz, View.ld_unit_zero (S := S1x2048) hz]

/-- The last point stores the updated sum, reads it back, and leaves it multiplied by the mean's factor. -/
theorem piece_C (c : Dev nD) (i : grid3.Coords) (a1 : Memref sig .tc .vmem S256x2048 .f32) (h1 : a1.IsWhole)
    (a2 : Memref sig .tc .vmem S256x2048 .f32) (h2 : a2.IsWhole) (a3 : Memref sig .tc .vmem S2048x2048 .bf16) (h3 : a3.IsWhole)
    (a4 : Memref sig .tc .vmem S1x2048 .f32) (h4 : a4.IsWhole) (a5 : Memref sig .tc .vmem S2048x2048 .f32) (h5 : a5.IsWhole)
    (a6 : Memref sig .tc .vmem S1x2048 .f32) (h6 : a6.IsWhole) (hc0 : ¬cond3_0 i) (hc1 : cond3_1 i)
    (x0 x1 : Vec F S256x2048 .f32) (x2 : Vec F S2048x2048 .bf16) (x3 : Vec F S1x2048 .f32) (xo4 : Vec F S2048x2048 .f32) (xo5 : Vec F S1x2048 .f32) :
    out3_C_4 c i a1 h1 a2 h2 a3 h3 a4 h4 a5 h5 a6 h6 hc0 hc1 x0 x1 x2 x3 xo4 xo5 = k3_pay8 (k3_pay6 x0 x1 x2 x3 xo4) := by
  unfold out3_C_4
  rw [View.read_writes_eq_canon _ _ _ (cover3_C_4 c i a1 h1 a2 h2 a3 h3 a4 h4 a5 h5 a6 h6 hc0 hc1 x0 x1 x2 x3 xo4 xo5)]
  unfold kernelRun3_C
  dsimp only
  sl_unfold_words
  rw [View.canon_cons_unit_zero (S := S2048x2048) hz, View.readCov_unit_zero (S := S2048x2048) _ hz]
  simp only [View.readAt_eq_ld, h1.read_unread, h2.read_unread, h3.read_unread, h4.read_unread, h5.read_unread,
    View.ld_unit_zero (S := S256x2048) hz, View.ld_unit_zero (S := S2048x2048) hz, View.ld_unit_zero (S := S1x2048) hz]

end Pieces

/-! ### The block's arithmetic, entry by entry, on the extended reals -/

section AtIdeal

/-- The prediction error of the block's token `r` at feature `i`:
    `(train · Wᵀ + b) (r, i) − (label − train) (r, i)` over the block's rows. -/
def errBlk (x0 x1 : FVec Ideal S256x2048 .f32) (x2 : FVec Ideal S2048x2048 .bf16) (x3 : FVec Ideal S1x2048 .f32)
    (r : Fin 256) (i : Fin 2048) : EReal :=
  ((∑ k : Fin 2048, x0 (ix2 r k) * x2 (ix2 i k)) + x3 (ix2 (0 : Fin 1) i))
    - (x1 (ix2 r i) - x0 (ix2 r i))

/-- The token block recast to its own shape is itself. -/
theorem pay3_eq (x0 : FVec Ideal S256x2048 .f32) : k3_pay3 (F := Ideal) x0 = x0 := by
  unfold k3_pay3
  exact shapeCast_self _ _

/-- Narrowing the token block changes no entry on the extended reals. -/
theorem pay4_apply (x0 : FVec Ideal S256x2048 .f32) (j : S256x2048.Idx) : k3_pay4 (F := Ideal) x0 j = x0 j := by
  unfold k3_pay4
  rw [pay3_eq]
  rfl

/-- The error block at (r, i): the row of tokens against row `i` of the weights (`A · Bᵀ`), plus the bias, minus the target. -/
theorem pay5_apply (x0 x1 : FVec Ideal S256x2048 .f32) (x2 : FVec Ideal S2048x2048 .bf16) (x3 : FVec Ideal S1x2048 .f32)
    (r : Fin 256) (i : Fin 2048) :
    k3_pay5 (F := Ideal) x0 x1 x2 x3 (ix2 r i) = errBlk x0 x1 x2 x3 r i := by
  unfold k3_pay5 errBlk
  rw [subf_apply, addf_apply, subf_apply, shapeCast_self, shapeCast_self, shapeCast_self, pay3_eq,
    DotForms.abt_matmul_zero_apply ⟨rfl, rfl, rfl, rfl, rfl, rfl⟩, broadcastTo_1b_ab_apply]
  refine congrArg (fun z => (z + _) - _) (Finset.sum_congr rfl fun k _ => ?_)
  rw [pay4_apply]

/-- The update at (i, j): the running entry plus column `i` of the error block against column `j` of the tokens (`Aᵀ · B`). -/
theorem pay6_apply (x0 x1 : FVec Ideal S256x2048 .f32) (x2 : FVec Ideal S2048x2048 .bf16) (x3 : FVec Ideal S1x2048 .f32)
    (acc : FVec Ideal S2048x2048 .f32) (i j : Fin 2048) :
    k3_pay6 (F := Ideal) x0 x1 x2 x3 acc (ix2 i j)
      = acc (ix2 i j) + ∑ r : Fin 256, errBlk x0 x1 x2 x3 r i * x0 (ix2 r j) := by
  unfold k3_pay6
  rw [addf_apply, shapeCast_self, DotForms.atb_matmul_zero_apply ⟨rfl, rfl, rfl, rfl, rfl, rfl⟩]
  refine congrArg (fun z => _ + z) (Finset.sum_congr rfl fun r _ => ?_)
  rw [truncf_apply, pay5_apply, pay4_apply]

/-- The reset block is zero everywhere. -/
theorem pay1_apply (j : S2048x2048.Idx) : k3_pay1 (F := Ideal) j = 0 := by
  unfold k3_pay1
  exact Ideal.ofBits_zero_f32

/-- The final scaling multiplies every entry by the mean's factor. -/
theorem pay8_apply (y : FVec Ideal S2048x2048 .f32) (j : S2048x2048.Idx) : k3_pay8 (F := Ideal) y j = y j * TTT.coef := by
  unfold k3_pay8
  rw [mulf_apply, shapeCast_self]
  rfl

end AtIdeal

/-! ### The region's arrays and blocks, named at their literal types -/

section Arrays

variable (V : (c : Dev nD) → (b : Ref sig .tc) → Buf (Elt Ideal) ((c : Thread nD τ).loc b))

/-- The four input arrays as the region finds them: the training tokens, the labels, the weights, the bias row. -/
abbrev trainArr (c : Dev nD) : FVec Ideal S4096x2048 .f32 := V c main_v4
abbrev labelArr (c : Dev nD) : FVec Ideal S4096x2048 .f32 := V c main_v5
abbrev wArr (c : Dev nD) : FVec Ideal S2048x2048 .bf16 := V c main_v7
abbrev bArr (c : Dev nD) : FVec Ideal S1x2048 .f32 := V c main_v8

/-- Their blocks at point `t`: 256 rows of tokens and of labels, the whole weights, the whole bias row. -/
abbrev trainBlk (c : Dev nD) (t : Fin cfg3.N) : FVec Ideal S256x2048 .f32 := iblk3 V c 0 t
abbrev labelBlk (c : Dev nD) (t : Fin cfg3.N) : FVec Ideal S256x2048 .f32 := iblk3 V c 1 t
abbrev wBlk (c : Dev nD) (t : Fin cfg3.N) : FVec Ideal S2048x2048 .bf16 := iblk3 V c 2 t
abbrev bBlk (c : Dev nD) (t : Fin cfg3.N) : FVec Ideal S1x2048 .f32 := iblk3 V c 3 t

/-- Where each window's block sits at point `t`: the token windows at row block `t`, the others at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `r` of the token block at point `t` is row `256 t + r` of the token array. -/
theorem trainBlk_apply (c : Dev nD) (t : Fin cfg3.N) (r : Fin 256) (k : Fin 2048) (R : Fin 4096)
    (hR : R.val = 256 * t.val + r.val) : trainBlk V c t (ix2 r k) = trainArr V c (ix2 R k) := by
  show V c main_v4 (((cfg3.win 0).blk t).view.emb (ix2 r k)) = V c main_v4 (ix2 R k)
  refine congrArg (V c main_v4) (funext fun a => Fin.ext ?_)
  obtain ⟨e0, e1, -⟩ := idx_facts t
  match a with
  | ⟨0, _⟩ => show win3_0.index t (0 : Fin 2) * 256 + 1 * r.val = R.val; rw [e0, hR]; omega
  | ⟨1, _⟩ => show win3_0.index t (1 : Fin 2) * 2048 + 1 * k.val = k.val; rw [e1]; omega

/-- Likewise for the labels. -/
theorem labelBlk_apply (c : Dev nD) (t : Fin cfg3.N) (r : Fin 256) (k : Fin 2048) (R : Fin 4096)
    (hR : R.val = 256 * t.val + r.val) : labelBlk V c t (ix2 r k) = labelArr V c (ix2 R k) := by
  show V c main_v5 (((cfg3.win 1).blk t).view.emb (ix2 r k)) = V c main_v5 (ix2 R k)
  refine congrArg (V c main_v5) (funext fun a => Fin.ext ?_)
  obtain ⟨-, -, e0, e1, -⟩ := idx_facts t
  match a with
  | ⟨0, _⟩ => show win3_1.index t (0 : Fin 2) * 256 + 1 * r.val = R.val; rw [e0, hR]; omega
  | ⟨1, _⟩ => show win3_1.index t (1 : Fin 2) * 2048 + 1 * k.val = k.val; rw [e1]; omega

/-- The weights' block is the whole array at every point. -/
theorem wBlk_apply (c : Dev nD) (t : Fin cfg3.N) (i k : Fin 2048) : wBlk V c t (ix2 i k) = wArr V c (ix2 i k) := by
  show V c main_v7 (((cfg3.win 2).blk t).view.emb (ix2 i k)) = V c main_v7 (ix2 i k)
  refine congrArg (V c main_v7) (funext fun a => Fin.ext ?_)
  obtain ⟨-, -, -, -, e0, e1, -⟩ := idx_facts t
  match a with
  | ⟨0, _⟩ => show win3_2.index t (0 : Fin 2) * 2048 + 1 * i.val = i.val; rw [e0]; omega
  | ⟨1, _⟩ => show win3_2.index t (1 : Fin 2) * 2048 + 1 * k.val = k.val; rw [e1]; omega

/-- So is the bias row's. -/
theorem bBlk_apply (c : Dev nD) (t : Fin cfg3.N) (i : Fin 2048) : bBlk V c t (ix2 (0 : Fin 1) i) = bArr V c (ix2 (0 : Fin 1) i) := by
  show V c main_v8 (((cfg3.win 3).blk t).view.emb (ix2 (0 : Fin 1) i)) = V c main_v8 (ix2 (0 : Fin 1) i)
  refine congrArg (V c main_v8) (funext fun a => Fin.ext ?_)
  obtain ⟨-, -, -, -, -, -, e0, e1, -⟩ := idx_facts t
  match a with
  | ⟨0, _⟩ => show win3_3.index t (0 : Fin 2) * 1 + 1 * 0 = 0; rw [e0]
  | ⟨1, _⟩ => show win3_3.index t (1 : Fin 2) * 2048 + 1 * i.val = i.val; rw [e1]; omega

end Arrays

/-! ### The accumulation over the sixteen points -/

section Accumulate

variable (V : (c : Dev nD) → (b : Ref sig .tc) → Buf (Elt Ideal) ((c : Thread nD τ).loc b))

/-- What point `t` adds to entry (i, j): the sum over its 256 tokens of `err (r, i) · train (r, j)`. -/
def blkTerm (c : Dev nD) (t : Fin cfg3.N) (i j : Fin 2048) : EReal :=
  ∑ r : Fin 256, errBlk (trainBlk V c t) (labelBlk V c t) (wBlk V c t) (bBlk V c t) r i * trainBlk V c t (ix2 r j)

/-- The same as a function of the point's number, zero past the grid. -/
def term (c : Dev nD) (i j : Fin 2048) (s : ℕ) : EReal :=
  if hs : s < cfg3.N then blkTerm V c ⟨s, hs⟩ i j else 0

theorem term_of_lt (c : Dev nD) (i j : Fin 2048) (s : ℕ) (hs : s < cfg3.N) : term V c i j s = blkTerm V c ⟨s, hs⟩ i j :=
  dif_pos hs

/-- The first point resets the block and adds its term. -/
theorem step_first (c : Dev nD) (t : Fin cfg3.N) (h0 : t.val % 16 = 0) (h1 : ¬t.val % 16 = 15) (i j : Fin 2048) :
    (outsAt3 V c t.val t.isLt).1 (ix2 i j) = 0 + blkTerm V c t i j := by
  rw [outsAt3_A V c t h0 h1]
  dsimp only
  refine (congrFun (piece_A (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) ((hcond3_0 t).mpr h0) (fun h => h1 ((hcond3_1 t).mp h))
    (trainBlk V c t) (labelBlk V c t) (wBlk V c t) (bBlk V c t)) (ix2 i j)).trans ?_
  refine (pay6_apply (trainBlk V c t) (labelBlk V c t) (wBlk V c t) (bBlk V c t) (k3_pay1 (F := Ideal)) i j).trans ?_
  rw [pay1_apply]
  rfl

/-- A middle point adds its term to what the point before left. -/
theorem step_mid (c : Dev nD) (t : Fin cfg3.N) (h0 : ¬t.val % 16 = 0) (h1 : ¬t.val % 16 = 15) (i j : Fin 2048) :
    (outsAt3 V c t.val t.isLt).1 (ix2 i j)
      = (outsAt3 V c (t.val - 1) (Nat.lt_of_le_of_lt (Nat.sub_le _ _) t.isLt)).1 (ix2 i j) + blkTerm V c t i j := by
  rw [outsAt3_B V c t h0 h1]
  dsimp only
  refine (congrFun (piece_B (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) (fun h => h0 ((hcond3_0 t).mp h)) (fun h => h1 ((hcond3_1 t).mp h))
    (trainBlk V c t) (labelBlk V c t) (wBlk V c t) (bBlk V c t)
    (outsAt3 V c (t.val - 1) (Nat.lt_of_le_of_lt (Nat.sub_le _ _) t.isLt)).1
    (outsAt3 V c (t.val - 1) (Nat.lt_of_le_of_lt (Nat.sub_le _ _) t.isLt)).2) (ix2 i j)).trans ?_
  exact pay6_apply (trainBlk V c t) (labelBlk V c t) (wBlk V c t) (bBlk V c t)
    (outsAt3 V c (t.val - 1) (Nat.lt_of_le_of_lt (Nat.sub_le _ _) t.isLt)).1 i j

/-- The last point adds its term and multiplies by the mean's factor. -/
theorem step_last (c : Dev nD) (t : Fin cfg3.N) (h0 : ¬t.val % 16 = 0) (h1 : t.val % 16 = 15) (i j : Fin 2048) :
    (outsAt3 V c t.val t.isLt).1 (ix2 i j)
      = ((outsAt3 V c (t.val - 1) (Nat.lt_of_le_of_lt (Nat.sub_le _ _) t.isLt)).1 (ix2 i j) + blkTerm V c t i j) * TTT.coef := by
  rw [outsAt3_C V c t h0 h1]
  dsimp only
  refine (congrFun (piece_C (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) (fun h => h0 ((hcond3_0 t).mp h)) ((hcond3_1 t).mpr h1)
    (trainBlk V c t) (labelBlk V c t) (wBlk V c t) (bBlk V c t)
    (outsAt3 V c (t.val - 1) (Nat.lt_of_le_of_lt (Nat.sub_le _ _) t.isLt)).1
    (outsAt3 V c (t.val - 1) (Nat.lt_of_le_of_lt (Nat.sub_le _ _) t.isLt)).2) (ix2 i j)).trans ?_
  refine (pay8_apply _ (ix2 i j)).trans ?_
  exact congrArg (· * TTT.coef) (pay6_apply (trainBlk V c t) (labelBlk V c t) (wBlk V c t) (bBlk V c t)
    (outsAt3 V c (t.val - 1) (Nat.lt_of_le_of_lt (Nat.sub_le _ _) t.isLt)).1 i j)

/-- Before the last point the block holds the sum of the terms so far — by induction on the point. -/
theorem acc_before_last (c : Dev nD) (i j : Fin 2048) : ∀ (n : ℕ) (h : n < cfg3.N), n < 15 →
    (outsAt3 V c n h).1 (ix2 i j) = ∑ s ∈ Finset.range (n + 1), term V c i j s
  | 0, h, _ => by
    rw [Finset.sum_range_one, term_of_lt V c i j 0 h]
    exact (step_first V c ⟨0, h⟩ rfl (by dsimp only; omega) i j).trans (zero_add _)
  | n + 1, h, hn => by
    rw [Finset.sum_range_succ, term_of_lt V c i j (n + 1) h, ← acc_before_last c i j n (Nat.lt_of_succ_lt h) (by omega)]
    exact step_mid V c ⟨n + 1, h⟩ (by dsimp only; omega) (by dsimp only; omega) i j

/-- After the last point: the sum of all sixteen terms, times the mean's factor. -/
theorem acc_last (c : Dev nD) (i j : Fin 2048) (h : 15 < cfg3.N) :
    (outsAt3 V c 15 h).1 (ix2 i j) = (∑ s ∈ Finset.range 16, term V c i j s) * TTT.coef := by
  rw [Finset.sum_range_succ, term_of_lt V c i j 15 h, ← acc_before_last V c i j 14 (Nat.lt_of_succ_lt h) (by omega)]
  exact step_last V c ⟨15, h⟩ (by dsimp only; omega) rfl i j

end Accumulate

/-! ### The result array -/

section Final

variable (V : (c : Dev nD) → (b : Ref sig .tc) → Buf (Elt Ideal) ((c : Thread nD τ).loc b))

/-- Point `s`'s term, over the arrays: its tokens are `256 s + r`. -/
theorem blkTerm_eq (c : Dev nD) (s : Fin 16) (hs : s.val < cfg3.N) (i j : Fin 2048) :
    blkTerm V c ⟨s.val, hs⟩ i j
      = ∑ r : Fin 256, TTT.err (trainArr V c) (labelArr V c) (wArr V c) (bArr V c) (TTT.tok s r) i
          * trainArr V c (ix2 (TTT.tok s r) j) := by
  unfold blkTerm
  refine Finset.sum_congr rfl fun r _ => ?_
  rw [trainBlk_apply V c ⟨s.val, hs⟩ r j (TTT.tok s r) rfl]
  refine congrArg (· * trainArr V c (ix2 (TTT.tok s r) j)) ?_
  unfold errBlk TTT.err
  rw [labelBlk_apply V c ⟨s.val, hs⟩ r i (TTT.tok s r) rfl, trainBlk_apply V c ⟨s.val, hs⟩ r i (TTT.tok s r) rfl,
    bBlk_apply V c ⟨s.val, hs⟩ i]
  refine congrArg (fun z => (z + _) - _) (Finset.sum_congr rfl fun k _ => ?_)
  rw [trainBlk_apply V c ⟨s.val, hs⟩ r k (TTT.tok s r) rfl, wBlk_apply V c ⟨s.val, hs⟩ i k]

/-- After the last point the block holds the weight gradient of the four arrays. -/
theorem outs_last (c : Dev nD) (h : 15 < cfg3.N) :
    (outsAt3 V c 15 h).1 = TTT.gradW (trainArr V c) (labelArr V c) (wArr V c) (bArr V c) := by
  funext y
  obtain ⟨i, j, rfl⟩ : ∃ (i : Fin 2048) (j : Fin 2048), y = ix2 i j := ⟨y 0, y 1, eq_ix2 y⟩
  rw [acc_last V c i j h]
  show _ = (∑ R : Fin 4096, TTT.err (trainArr V c) (labelArr V c) (wArr V c) (bArr V c) R i * trainArr V c (ix2 R j)) * TTT.coef
  rw [← TTT.sum_blocks, ← Fin.sum_univ_eq_sum_range]
  have hN : cfg3.N = 16 := N_3
  refine congrArg (· * TTT.coef) (Finset.sum_congr rfl fun s _ => ?_)
  have hs : s.val < cfg3.N := by have := s.isLt; omega
  rw [term_of_lt V c i j s.val hs]
  exact blkTerm_eq V c s hs i j

/-- The one write-back, at the last point, writes that: the block at the origin of the 2048 × 2048 array is the array. -/
theorem flushed_eq (c : Dev nD) (t : Fin cfg3.N) (hf : (cfg3.win 4).flush t = true) :
    (dat3 V c).flushed 4 t
      = ((cfg3.win 4).blk t).view.read (Elt Ideal) (TTT.gradW (trainArr V c) (labelArr V c) (wArr V c) (bArr V c)) := by
  have hN : cfg3.N = 16 := N_3
  have h15 : t.val = 15 := by have := (flush3_4 t).mp hf; have := t.isLt; omega
  obtain ⟨n, hn⟩ := t
  dsimp only at h15
  subst h15
  show (cfg3.win 4).cut (grid3.coords ⟨15, hn⟩) ((dat3 V c).after 4 ⟨15, hn⟩) = _
  rw [after3_4, outs_last]
  obtain ⟨-, -, -, -, -, -, -, -, e0, e1⟩ := idx_facts ⟨15, hn⟩
  have hz' : (fun a => win3_4.index ⟨15, hn⟩ a * main_v9_0.ty.shape.size a) = fun _ => 0 := funext fun a => by
    match a with
    | ⟨0, _⟩ => show win3_4.index ⟨15, hn⟩ (0 : Fin 2) * 2048 = 0; rw [e0]
    | ⟨1, _⟩ => show win3_4.index ⟨15, hn⟩ (1 : Fin 2) * 2048 = 0; rw [e1]
  exact (Memref.read_access_unit_zero (Elt Ideal) main_v9_0 hz' (fun a => by rw [congrFun hz' a]; simp)
    (TTT.gradW (trainArr V c) (labelArr V c) (wArr V c) (bArr V c))).symm

end Final

end GradW

variable (V : (c : Dev nD) → (b : Ref sig .tc) → Buf (Elt Ideal) ((c : Thread nD τ).loc b))

/-- After the region the weight-gradient array is `TTT.gradW` of the region's four input arrays as it found them. -/
theorem grad_final_W (c : Dev nD) :
    (dat3 V c).arrAt 4 cfg3.N = TTT.gradW (V c main_v4) (V c main_v5) (V c main_v7) (V c main_v8) :=
  (dat3 V c).arrAt_eq_of_cover 4 (TTT.gradW (V c main_v4) (V c main_v5) (V c main_v7) (V c main_v8))
    (GradW.flushed_eq V c) fun y =>
    ⟨t3_15, (flush3_4 t3_15).mpr rfl, by
      show y ∈ ((View.whole main_v9_0).slice (win3_4.rect t3_15)).set
      rw [View.set_slice_whole, Rect.mem_set_unit]
      obtain ⟨-, -, -, -, -, -, -, -, e0, e1⟩ := GradW.idx_facts t3_15
      have h0 : (y 0 : Nat) < 2048 := (y 0).isLt
      have h1 : (y 1 : Nat) < 2048 := (y 1).isLt
      intro a
      match a with
      | ⟨0, _⟩ =>
        show win3_4.index t3_15 (0 : Fin 2) * 2048 ≤ (y 0 : Nat) ∧ (y 0 : Nat) < win3_4.index t3_15 (0 : Fin 2) * 2048 + 2048
        rw [e0]; omega
      | ⟨1, _⟩ =>
        show win3_4.index t3_15 (1 : Fin 2) * 2048 ≤ (y 1 : Nat) ∧ (y 1 : Nat) < win3_4.index t3_15 (1 : Fin 2) * 2048 + 2048
        rw [e1]; omega⟩

end Cert.KernelIdeal.Val

end
-- ==== Proof.GradB.lean ====
/-
  The gradient call, bias output: over sixteen grid points the output row accumulates, block of 256 tokens after block,
  the column sums of `err`; the first point starts from zero, the last one multiplies by the mean's factor, and only the
  last point's contents are written back to the array.

  The road: each of the three control cases leaves one store's value in the row (reset-then-add, add, add-then-scale);
  read at a feature j that value is "what the row held, plus the sum over the block's 256 tokens of the error at j";
  the token windows at point t hold tokens 256 t … 256 t + 255 and the weight and bias windows hold their whole arrays,
  so the block's error is the specification's error at those tokens; by induction on the point the row holds the sum of
  the block sums met so far, and sixteen block sums regroup into the sum over all 4096 tokens.
-/
import proofs.«152635_j12223476924503_1_alg».proof.Proof.Gen.KernelIdeal.Frame
import proofs.«152635_j12223476924503_1_alg».proof.Proof.Spec
import proofs.«152635_j12223476924503_1_alg».proof.Proof.LibPlainDot
import proofs.«152635_j12223476924503_1_alg».proof.Proof.LibDotForms
import proofs.«152635_j12223476924503_1_alg».proof.Proof.SpecAlgebra
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Val

open Cert.KernelIdeal Cert.KernelIdeal.Gen

namespace BiasRow

/-! ## What each control case leaves in the row -/

section pieces
variable {F : FTy → Type} [FloatOps F]

/-- Zero offsets on both axes. -/
theorem hz2 : (![0, 0] : Fin 2 → Nat) = fun _ => 0 := funext fun a => by fin_cases a <;> rfl

/-- A middle point's one store into the row: the accumulation step over what the row held. -/
theorem piece_B (c : Dev nD) (i : grid3.Coords) (a1 : Memref sig .tc .vmem S256x2048 .f32) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x2048 .f32) (h5 : a5.IsWhole) (a6 : Memref sig .tc .vmem S1x2048 .f32) (h6 : a6.IsWhole) (hc0 : ¬cond3_0 i) (hc1 : ¬cond3_1 i)
    (x0 x1 : Vec F S256x2048 .f32) (x2 : Vec F S2048x2048 .bf16) (x3 : Vec F S1x2048 .f32) (xo4 : Vec F S2048x2048 .f32) (xo5 : Vec F S1x2048 .f32) :
    out3_B_5 c i a1 h1 a2 h2 a3 h3 a4 h4 a5 h5 a6 h6 hc0 hc1 x0 x1 x2 x3 xo4 xo5 = k3_pay7 x0 x1 x2 x3 xo5 := by
  unfold out3_B_5
  rw [View.read_writes_eq_canon _ _ _ (cover3_B_5 c i a1 h1 a2 h2 a3 h3 a4 h4 a5 h5 a6 h6 hc0 hc1 x0 x1 x2 x3 xo4 xo5)]
  unfold kernelRun3_B
  dsimp only
  sl_unfold_words
  rw [View.canon_unit_zero hz2]
  simp only [View.readAt_eq_ld, h1.read_unread, h2.read_unread, h3.read_unread, h4.read_unread, h6.read_unread,
    View.ld_unit_zero (S := S256x2048) hz2, View.ld_unit_zero (S := S2048x2048) hz2, View.ld_unit_zero (S := S1x2048) hz2]

/-- The first point stores the zero row, reads it back, and stores the accumulation step over it. -/
theorem piece_A (c : Dev nD) (i : grid3.Coords) (a1 : Memref sig .tc .vmem S256x2048 .f32) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x2048 .f32) (h5 : a5.IsWhole) (a6 : Memref sig .tc .vmem S1x2048 .f32) (h6 : a6.IsWhole) (hc0 : cond3_0 i) (hc1 : ¬cond3_1 i)
    (x0 x1 : Vec F S256x2048 .f32) (x2 : Vec F S2048x2048 .bf16) (x3 : Vec F S1x2048 .f32) :
    out3_A_5 c i a1 h1 a2 h2 a3 h3 a4 h4 a5 h5 a6 h6 hc0 hc1 x0 x1 x2 x3 = k3_pay7 x0 x1 x2 x3 (k3_pay2 (F := F)) := by
  unfold out3_A_5
  rw [View.read_writes_eq_canon _ _ _ (cover3_A_5 c i a1 h1 a2 h2 a3 h3 a4 h4 a5 h5 a6 h6 hc0 hc1 x0 x1 x2 x3)]
  unfold kernelRun3_A
  dsimp only
  sl_unfold_words
  rw [View.canon_cons_unit_zero (S := S1x2048) hz2, View.readCov_unit_zero (S := S1x2048) _ hz2]
  simp only [View.readAt_eq_ld, h1.read_unread, h2.read_unread, h3.read_unread, h4.read_unread,
    View.ld_unit_zero (S := S256x2048) hz2, View.ld_unit_zero (S := S2048x2048) hz2, View.ld_unit_zero (S := S1x2048) hz2]

/-- The last point stores the accumulation step, reads it back, and stores it scaled. -/
theorem piece_C (c : Dev nD) (i : grid3.Coords) (a1 : Memref sig .tc .vmem S256x2048 .f32) (h1 : a1.IsWhole) (a2 : Memref sig .tc .vmem S256x2048 .f32) (h2 : a2.IsWhole) (a3 : Memref sig .tc .vmem S2048x2048 .bf16) (h3 : a3.IsWhole) (a4 : Memref sig .tc .vmem S1x2048 .f32) (h4 : a4.IsWhole) (a5 : Memref sig .tc .vmem S2048x2048 .f32) (h5 : a5.IsWhole) (a6 : Memref sig .tc .vmem S1x2048 .f32) (h6 : a6.IsWhole) (hc0 : ¬cond3_0 i) (hc1 : cond3_1 i)
    (x0 x1 : Vec F S256x2048 .f32) (x2 : Vec F S2048x2048 .bf16) (x3 : Vec F S1x2048 .f32) (xo4 : Vec F S2048x2048 .f32) (xo5 : Vec F S1x2048 .f32) :
    out3_C_5 c i a1 h1 a2 h2 a3 h3 a4 h4 a5 h5 a6 h6 hc0 hc1 x0 x1 x2 x3 xo4 xo5 = k3_pay9 (k3_pay7 x0 x1 x2 x3 xo5) := by
  unfold out3_C_5
  rw [View.read_writes_eq_canon _ _ _ (cover3_C_5 c i a1 h1 a2 h2 a3 h3 a4 h4 a5 h5 a6 h6 hc0 hc1 x0 x1 x2 x3 xo4 xo5)]
  unfold kernelRun3_C
  dsimp only
  sl_unfold_words
  rw [View.canon_cons_unit_zero (S := S1x2048) hz2, View.readCov_unit_zero (S := S1x2048) _ hz2]
  simp only [View.readAt_eq_ld, h1.read_unread, h2.read_unread, h3.read_unread, h4.read_unread, h6.read_unread,
    View.ld_unit_zero (S := S256x2048) hz2, View.ld_unit_zero (S := S2048x2048) hz2, View.ld_unit_zero (S := S1x2048) hz2]

end pieces

/-! ## The body's arithmetic read at an entry, on the extended reals -/

section arithmetic

open Idealize.ShloMosaic.ValueIdx

/-- The prediction error of one block of 256 tokens at (token r of the block, feature j):
    (train · Wᵀ + b) (r, j) − (label − train) (r, j). -/
def errBlk (x0 x1 : FVec Ideal S256x2048 .f32) (x2 : FVec Ideal S2048x2048 .bf16) (x3 : FVec Ideal S1x2048 .f32)
    (r : Fin 256) (j : Fin 2048) : EReal :=
  ((∑ k : Fin 2048, x0 (ix2 r k) * x2 (ix2 j k)) + x3 (ix2 0 j)) - (x1 (ix2 r j) - x0 (ix2 r j))

theorem isABt_grad : DotForms.IsABt dot_S256x2048_S2048x2048_S256x2048_1_1_0_0_n_n := ⟨rfl, rfl, rfl, rfl, rfl, rfl⟩

/-- The error block the body computes, at an entry. -/
theorem pay5_apply (x0 x1 : FVec Ideal S256x2048 .f32) (x2 : FVec Ideal S2048x2048 .bf16) (x3 : FVec Ideal S1x2048 .f32)
    (r : Fin 256) (j : Fin 2048) :
    k3_pay5 (F := Ideal) x0 x1 x2 x3 (ix2 r j) = errBlk x0 x1 x2 x3 r j := by
  unfold k3_pay5 k3_pay4 k3_pay3 errBlk
  simp only [shapeCast_self]
  refine (subf_apply _ _ _).trans ?_
  refine congrArg₂ (· - ·) ((addf_apply _ _ _).trans (congrArg₂ (· + ·) ?_ ?_)) (subf_apply _ _ _)
  · exact DotForms.abt_matmul_zero_apply isABt_grad none _ x2 r j
  · exact broadcastTo_1b_ab_apply x3 _ r j

/-- Row r of the block put back over the reduced index j: the entry (r, j). -/
theorem lift_row (j : Fin 2048) (k : Fin (S256x2048.size 0)) :
    reduces_S256x2048_S2048.lift (ix1 j) k = ix2 (⟨k.val, k.isLt⟩ : Fin 256) j := by
  funext a; apply Fin.ext
  fin_cases a <;> rfl

/-- A sum over the rows of a 256 × 2048 block: the reduction of axis 0 at feature j. -/
theorem colsum_apply (src : FVec Ideal S256x2048 .f32) (hφ : FKind.Formats FTy.f32)
    (hacc : (0x00000000#32 : BitVec 32) = 0x00000000#32) (j : Fin 2048) :
    multiReduction (F := Ideal) .add [0] S2048 src 0x00000000#32 reduces_S256x2048_S2048 hφ hacc (ix1 j)
      = ∑ r : Fin 256, src (ix2 r j) := by
  refine (Ideal.multiReduction_add_single src 0x00000000#32 reduces_S256x2048_S2048 hφ hacc (ix1 j)).trans ?_
  exact Finset.sum_congr rfl fun k _ => congrArg src (lift_row j k)

/-- The accumulated row after one more block, at feature j: what it held plus the block's column sum of the error. -/
theorem pay7_apply (x0 x1 : FVec Ideal S256x2048 .f32) (x2 : FVec Ideal S2048x2048 .bf16) (x3 acc : FVec Ideal S1x2048 .f32)
    (j : Fin 2048) :
    k3_pay7 (F := Ideal) x0 x1 x2 x3 acc (ix2 0 j) = acc (ix2 0 j) + ∑ r : Fin 256, errBlk x0 x1 x2 x3 r j := by
  unfold k3_pay7
  simp only [shapeCast_self]
  refine (addf_apply _ _ _).trans (congrArg (acc (ix2 0 j) + ·) ?_)
  refine (shapeCast_a_1a_apply _ _ (0 : Fin 1) j).trans ?_
  refine (colsum_apply _ _ _ j).trans ?_
  exact Finset.sum_congr rfl fun r _ => pay5_apply x0 x1 x2 x3 r j

/-- The last point's scaling, at feature j. -/
theorem pay9_apply (v : FVec Ideal S1x2048 .f32) (j : Fin 2048) :
    k3_pay9 (F := Ideal) v (ix2 0 j) = v (ix2 0 j) * TTT.coef := by
  unfold k3_pay9
  simp only [shapeCast_self]
  rfl

/-- The first point's reset row is zero. -/
theorem pay2_apply (j : Fin 2048) : k3_pay2 (F := Ideal) (ix2 0 j) = 0 := by
  unfold k3_pay2
  exact Ideal.ofBits_zero_f32

end arithmetic

/-! ## The blocks the windows read -/

section blocks

open Idealize.ShloMosaic.ValueIdx

variable (V : (c : Dev nD) → (b : Ref sig .tc) → Buf (Elt Ideal) ((c : Thread nD τ).loc b))

/-- The four arrays the region reads, as it finds them: train and label (tokens × features), the weights, the bias row. -/
abbrev trainArr (c : Dev nD) : FVec Ideal S4096x2048 .f32 := V c main_v4
abbrev labelArr (c : Dev nD) : FVec Ideal S4096x2048 .f32 := V c main_v5
abbrev wArr (c : Dev nD) : FVec Ideal S2048x2048 .bf16 := V c main_v7
abbrev bArr (c : Dev nD) : FVec Ideal S1x2048 .f32 := V c main_v8

/-- What the four input windows hold at point t. -/
abbrev trainBlk (c : Dev nD) (t : Fin cfg3.N) : FVec Ideal S256x2048 .f32 := iblk3 V c 0 t
abbrev labelBlk (c : Dev nD) (t : Fin cfg3.N) : FVec Ideal S256x2048 .f32 := iblk3 V c 1 t
abbrev wBlk (c : Dev nD) (t : Fin cfg3.N) : FVec Ideal S2048x2048 .bf16 := iblk3 V c 2 t
abbrev bBlk (c : Dev nD) (t : Fin cfg3.N) : FVec Ideal S1x2048 .f32 := iblk3 V c 3 t

/-- A point of the grid as a block number below 16. -/
abbrev pt (t : Fin cfg3.N) : Fin 16 := ⟨t.val, lt_of_lt_of_eq t.isLt N_3⟩

/-- The token windows move one block of rows down per point and never sideways; the weights' and the bias row's stay. -/
theorem idx3 : ∀ t : Fin cfg3.N,
    (win3_0.index t (0 : Fin 2) = t.val ∧ win3_0.index t (1 : Fin 2) = 0) ∧
    (win3_1.index t (0 : Fin 2) = t.val ∧ win3_1.index t (1 : Fin 2) = 0) ∧
    (win3_2.index t (0 : Fin 2) = 0 ∧ win3_2.index t (1 : Fin 2) = 0) ∧
    (win3_3.index t (0 : Fin 2) = 0 ∧ win3_3.index t (1 : Fin 2) = 0) :=
  (by decide +kernel : ∀ t : Fin grid3.N, _)

/-- Row r of train's block at point t is token 256 t + r. -/
theorem trainBlk_apply (c : Dev nD) (t : Fin cfg3.N) (r : Fin 256) (k : Fin 2048) :
    trainBlk V c t (ix2 r k) = trainArr V c (ix2 (TTT.tok (pt t) r) k) := by
  unfold trainBlk trainArr iblk3
  rw [View.read_apply]
  show V c main_v4 _ = V c main_v4 _
  congr 1
  funext a
  apply Fin.ext
  match a with
  | ⟨0, _⟩ => show win3_0.index t 0 * 256 + 1 * r.val = 256 * t.val + r.val; rw [(idx3 t).1.1]; omega
  | ⟨1, _⟩ => show win3_0.index t 1 * 2048 + 1 * k.val = k.val; rw [(idx3 t).1.2]; omega

/-- Row r of label's block at point t is token 256 t + r. -/
theorem labelBlk_apply (c : Dev nD) (t : Fin cfg3.N) (r : Fin 256) (k : Fin 2048) :
    labelBlk V c t (ix2 r k) = labelArr V c (ix2 (TTT.tok (pt t) r) k) := by
  unfold labelBlk labelArr iblk3
  rw [View.read_apply]
  show V c main_v5 _ = V c main_v5 _
  congr 1
  funext a
  apply Fin.ext
  match a with
  | ⟨0, _⟩ => show win3_1.index t 0 * 256 + 1 * r.val = 256 * t.val + r.val; rw [(idx3 t).2.1.1]; omega
  | ⟨1, _⟩ => show win3_1.index t 1 * 2048 + 1 * k.val = k.val; rw [(idx3 t).2.1.2]; omega

/-- The weights' window holds the whole array at every point. -/
theorem wBlk_apply (c : Dev nD) (t : Fin cfg3.N) (j k : Fin 2048) :
    wBlk V c t (ix2 j k) = wArr V c (ix2 j k) := by
  unfold wBlk wArr iblk3
  rw [View.read_apply]
  show V c main_v7 _ = V c main_v7 _
  congr 1
  funext a
  apply Fin.ext
  match a with
  | ⟨0, _⟩ => show win3_2.index t 0 * 2048 + 1 * j.val = j.val; rw [(idx3 t).2.2.1.1]; omega
  | ⟨1, _⟩ => show win3_2.index t 1 * 2048 + 1 * k.val = k.val; rw [(idx3 t).2.2.1.2]; omega

/-- The bias row's window holds the whole row at every point. -/
theorem bBlk_apply (c : Dev nD) (t : Fin cfg3.N) (j : Fin 2048) :
    bBlk V c t (ix2 0 j) = bArr V c (ix2 0 j) := by
  unfold bBlk bArr iblk3
  rw [View.read_apply]
  show V c main_v8 _ = V c main_v8 _
  congr 1
  funext a
  apply Fin.ext
  match a with
  | ⟨0, _⟩ => show win3_3.index t 0 * 1 + 1 * 0 = 0; rw [(idx3 t).2.2.2.1]
  | ⟨1, _⟩ => show win3_3.index t 1 * 2048 + 1 * j.val = j.val; rw [(idx3 t).2.2.2.2]; omega

/-- A block's error is the specification's error at the block's tokens, once each window's entries are the arrays'. -/
theorem errBlk_eq (x0 x1 : FVec Ideal S256x2048 .f32) (x2 : FVec Ideal S2048x2048 .bf16) (x3 : FVec Ideal S1x2048 .f32)
    (A0 A1 : FVec Ideal S4096x2048 .f32) (A2 : FVec Ideal S2048x2048 .bf16) (A3 : FVec Ideal S1x2048 .f32) (s : Fin 16)
    (e0 : ∀ r k, x0 (ix2 r k) = A0 (ix2 (TTT.tok s r) k)) (e1 : ∀ r k, x1 (ix2 r k) = A1 (ix2 (TTT.tok s r) k))
    (e2 : ∀ j k, x2 (ix2 j k) = A2 (ix2 j k)) (e3 : ∀ j, x3 (ix2 0 j) = A3 (ix2 0 j)) (r : Fin 256) (j : Fin 2048) :
    errBlk x0 x1 x2 x3 r j = TTT.err A0 A1 A2 A3 (TTT.tok s r) j := by
  unfold errBlk TTT.err
  simp only [e0, e1, e2, e3]

/-- The column sum of the error over block s of the tokens, at feature j. -/
def blockSum (c : Dev nD) (j : Fin 2048) (s : Fin 16) : EReal :=
  ∑ r : Fin 256, TTT.err (trainArr V c) (labelArr V c) (wArr V c) (bArr V c) (TTT.tok s r) j

/-- What point t's blocks add to the accumulated row at feature j. -/
theorem errsum_blk (c : Dev nD) (t : Fin cfg3.N) (j : Fin 2048) :
    ∑ r : Fin 256, errBlk (trainBlk V c t) (labelBlk V c t) (wBlk V c t) (bBlk V c t) r j = blockSum V c j (pt t) :=
  Finset.sum_congr rfl fun r _ =>
    errBlk_eq (trainBlk V c t) (labelBlk V c t) (wBlk V c t) (bBlk V c t) (trainArr V c) (labelArr V c) (wArr V c) (bArr V c) (pt t)
      (trainBlk_apply V c t) (labelBlk_apply V c t) (wBlk_apply V c t) (bBlk_apply V c t) r j

end blocks

/-! ## The accumulated row, point after point -/

section accumulation

open Idealize.ShloMosaic.ValueIdx

variable (V : (c : Dev nD) → (b : Ref sig .tc) → Buf (Elt Ideal) ((c : Thread nD τ).loc b))

/-- The first point: the row is reset, so it leaves block 0's column sums. -/
theorem step_A (c : Dev nD) (t : Fin cfg3.N) (h0 : t.val % 16 = 0) (h1 : ¬t.val % 16 = 15) (j : Fin 2048) :
    (outsAt3 V c t.val t.isLt).2 (ix2 0 j) = blockSum V c j (pt t) := by
  rw [outsAt3_A V c t h0 h1]
  dsimp only
  refine (congrFun (piece_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (fun h => h1 ((hcond3_1 t).mp h))
    (trainBlk V c t) (labelBlk V c t) (wBlk V c t) (bBlk V c t)) (ix2 0 j)).trans ?_
  refine (pay7_apply (trainBlk V c t) (labelBlk V c t) (wBlk V c t) (bBlk V c t) (k3_pay2 (F := Ideal)) j).trans ?_
  rw [pay2_apply, zero_add, errsum_blk]

/-- A middle point adds its block's column sums to what the point before left. -/
theorem step_B (c : Dev nD) (t : Fin cfg3.N) (h0 : ¬t.val % 16 = 0) (h1 : ¬t.val % 16 = 15) (j : Fin 2048) :
    (outsAt3 V c t.val t.isLt).2 (ix2 0 j) = (outsAt3 V c (t.val - 1) (Nat.lt_of_le_of_lt (Nat.sub_le _ _) t.isLt)).2 (ix2 0 j) + blockSum V c j (pt t) := by
  rw [outsAt3_B V c t h0 h1]
  dsimp only
  refine (congrFun (piece_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (fun h => h1 ((hcond3_1 t).mp h))
    (trainBlk V c t) (labelBlk V c t) (wBlk V c t) (bBlk V c t) (outsAt3 V c (t.val - 1) (Nat.lt_of_le_of_lt (Nat.sub_le _ _) t.isLt)).1 (outsAt3 V c (t.val - 1) (Nat.lt_of_le_of_lt (Nat.sub_le _ _) t.isLt)).2) (ix2 0 j)).trans ?_
  refine (pay7_apply (trainBlk V c t) (labelBlk V c t) (wBlk V c t) (bBlk V c t) (outsAt3 V c (t.val - 1) (Nat.lt_of_le_of_lt (Nat.sub_le _ _) t.isLt)).2 j).trans ?_
  rw [errsum_blk]

/-- The last point adds its block's column sums and multiplies the row by the mean's factor. -/
theorem step_C (c : Dev nD) (t : Fin cfg3.N) (h0 : ¬t.val % 16 = 0) (h1 : t.val % 16 = 15) (j : Fin 2048) :
    (outsAt3 V c t.val t.isLt).2 (ix2 0 j) = ((outsAt3 V c (t.val - 1) (Nat.lt_of_le_of_lt (Nat.sub_le _ _) t.isLt)).2 (ix2 0 j) + blockSum V c j (pt t)) * TTT.coef := by
  rw [outsAt3_C V c t h0 h1]
  dsimp only
  refine (congrFun (piece_C (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) ((hcond3_1 t).mpr h1)
    (trainBlk V c t) (labelBlk V c t) (wBlk V c t) (bBlk V c t) (outsAt3 V c (t.val - 1) (Nat.lt_of_le_of_lt (Nat.sub_le _ _) t.isLt)).1 (outsAt3 V c (t.val - 1) (Nat.lt_of_le_of_lt (Nat.sub_le _ _) t.isLt)).2) (ix2 0 j)).trans ?_
  refine (pay9_apply (k3_pay7 (F := Ideal) (trainBlk V c t) (labelBlk V c t) (wBlk V c t) (bBlk V c t) (outsAt3 V c (t.val - 1) (Nat.lt_of_le_of_lt (Nat.sub_le _ _) t.isLt)).2) j).trans ?_
  refine congrArg (· * TTT.coef) ?_
  refine (pay7_apply (trainBlk V c t) (labelBlk V c t) (wBlk V c t) (bBlk V c t) (outsAt3 V c (t.val - 1) (Nat.lt_of_le_of_lt (Nat.sub_le _ _) t.isLt)).2 j).trans ?_
  rw [errsum_blk]

/-- The column sums of the error over the first n blocks of tokens. -/
def partialSum (c : Dev nD) (j : Fin 2048) (n : ℕ) : EReal :=
  ∑ s ∈ Finset.range n, if hs : s < 16 then blockSum V c j ⟨s, hs⟩ else 0

/-- Before the last point the row holds the column sums of the error over the blocks met so far: by induction on the point. -/
theorem acc_eq (c : Dev nD) (j : Fin 2048) : ∀ (n : ℕ) (h : n < cfg3.N), n < 15 →
    (outsAt3 V c n h).2 (ix2 0 j) = partialSum V c j (n + 1)
  | 0, h, _ => by
    refine (step_A V c ⟨0, h⟩ (Nat.zero_mod _) (by show ¬(0 % 16 = 15); decide) j).trans ?_
    show _ = partialSum V c j 1
    unfold partialSum
    rw [Finset.sum_range_one, dif_pos (by decide : 0 < 16)]
  | n + 1, h, h15 => by
    have hB0 : ¬(⟨n + 1, h⟩ : Fin cfg3.N).val % 16 = 0 := by dsimp only; omega
    have hB1 : ¬(⟨n + 1, h⟩ : Fin cfg3.N).val % 16 = 15 := by dsimp only; omega
    refine (step_B V c ⟨n + 1, h⟩ hB0 hB1 j).trans ?_
    show (outsAt3 V c n _).2 (ix2 0 j) + _ = _
    rw [acc_eq c j n (Nat.lt_of_succ_lt h) (by omega)]
    unfold partialSum
    rw [Finset.sum_range_succ _ (n + 1), dif_pos (by omega : n + 1 < 16)]

/-- All sixteen block sums together are the sum over all 4096 tokens. -/
theorem partialSum_all (c : Dev nD) (j : Fin 2048) :
    partialSum V c j 16 = ∑ R : Fin 4096, TTT.err (trainArr V c) (labelArr V c) (wArr V c) (bArr V c) R j := by
  unfold partialSum
  rw [Finset.sum_range]
  refine Eq.trans (Finset.sum_congr rfl fun s _ => ?_)
    (TTT.sum_blocks fun R => TTT.err (trainArr V c) (labelArr V c) (wArr V c) (bArr V c) R j)
  rw [dif_pos s.isLt]
  rfl

/-- After the last point the row is the bias gradient. -/
theorem row_final (c : Dev nD) (h : 15 < cfg3.N) (j : Fin 2048) :
    (outsAt3 V c 15 h).2 (ix2 0 j) = TTT.gradB (trainArr V c) (labelArr V c) (wArr V c) (bArr V c) (ix2 0 j) := by
  refine (step_C V c ⟨15, h⟩ (by show ¬(15 % 16 = 0); decide) (by show 15 % 16 = 15; rfl) j).trans ?_
  show ((outsAt3 V c 14 _).2 (ix2 0 j) + _) * TTT.coef = _
  rw [acc_eq V c j 14 (Nat.lt_of_succ_lt h) (by decide)]
  unfold TTT.gradB
  refine congrArg (· * TTT.coef) ?_
  refine Eq.trans ?_ (partialSum_all V c j)
  unfold partialSum
  rw [Finset.sum_range_succ _ 15, dif_pos (by decide : 15 < 16)]

end accumulation

/-! ## From the last point's row to the result array -/

section result

open Idealize.ShloMosaic.ValueIdx

variable (V : (c : Dev nD) → (b : Ref sig .tc) → Buf (Elt Ideal) ((c : Thread nD τ).loc b))

/-- The bias gradient of the four arrays the region finds, as contents of the result row. -/
abbrev gradRow (c : Dev nD) : Buf (Elt Ideal) ((c : Thread nD τ).loc main_v9_1) :=
  TTT.gradB (V c main_v4) (V c main_v5) (V c main_v7) (V c main_v8)

/-- The row the last point leaves is the bias gradient, entry by entry. -/
theorem row_last (c : Dev nD) : (outsAt3 V c t3_15.val t3_15.isLt).2 = gradRow V c := by
  funext i
  obtain ⟨p, q, rfl⟩ : ∃ (p : Fin 1) (q : Fin 2048), i = ix2 p q := ⟨i 0, i 1, eq_ix2 i⟩
  obtain rfl : p = 0 := Subsingleton.elim _ _
  exact row_final V c t3_15.isLt q

/-- The result row's window never moves: its one block is the whole row. -/
theorem idx5 : ∀ t : Fin cfg3.N, win3_5.index t (0 : Fin 2) = 0 ∧ win3_5.index t (1 : Fin 2) = 0 :=
  (by decide +kernel : ∀ t : Fin grid3.N, _)

/-- The one write-back, after the last point, writes the bias gradient. -/
theorem flushed_b (c : Dev nD) (t : Fin cfg3.N) (hf : (cfg3.win 5).flush t = true) :
    (dat3 V c).flushed 5 t = ((cfg3.win 5).blk t).view.read (Elt Ideal) (gradRow V c) := by
  have h15 : t.val = 15 := by
    have := (flush3_5 t).mp hf
    have := lt_of_lt_of_eq t.isLt N_3
    omega
  obtain rfl : t = t3_15 := Fin.ext h15
  show (cfg3.win 5).cut (grid3.coords t3_15) ((dat3 V c).after 5 t3_15) = _
  rw [after3_5, row_last]
  have hz' : (fun a => win3_5.index t3_15 a * main_v9_1.ty.shape.size a) = fun _ => 0 :=
    funext fun a => by
      match a with
      | ⟨0, _⟩ => show win3_5.index t3_15 0 * _ = 0; rw [(idx5 t3_15).1, Nat.zero_mul]
      | ⟨1, _⟩ => show win3_5.index t3_15 1 * _ = 0; rw [(idx5 t3_15).2, Nat.zero_mul]
  exact (Memref.read_access_unit_zero (Elt Ideal) main_v9_1 hz' (fun a => by rw [congrFun hz' a]; simp) (gradRow V c)).symm

end result

end BiasRow

variable (V : (c : Dev nD) → (b : Ref sig .tc) → Buf (Elt Ideal) ((c : Thread nD τ).loc b))

/-- After the region the bias-gradient row is `TTT.gradB` of the region's four input arrays as it found them. -/
theorem grad_final_b (c : Dev nD) :
    (dat3 V c).arrAt 5 cfg3.N = TTT.gradB (V c main_v4) (V c main_v5) (V c main_v7) (V c main_v8) :=
  (dat3 V c).arrAt_eq_of_cover 5 (BiasRow.gradRow V c) (BiasRow.flushed_b V c) fun i =>
    ⟨t3_15, (flush3_5 t3_15).mpr rfl, by
      show i ∈ ((View.whole main_v9_1).slice (win3_5.rect t3_15)).set
      rw [View.set_slice_whole, Rect.mem_set_unit]
      intro a
      have h0 : (i 0 : Nat) < 1 := (i 0).isLt
      have h1 : (i 1 : Nat) < 2048 := (i 1).isLt
      match a with
      | ⟨0, _⟩ =>
        show win3_5.index t3_15 0 * win3_5.size 0 ≤ (i 0 : Nat)
          ∧ (i 0 : Nat) < win3_5.index t3_15 0 * win3_5.size 0 + win3_5.xsize (grid3.coords t3_15) 0
        rw [(BiasRow.idx5 t3_15).1, show win3_5.xsize (grid3.coords t3_15) 0 = 1 from by decide +kernel]
        omega
      | ⟨1, _⟩ =>
        show win3_5.index t3_15 1 * win3_5.size 1 ≤ (i 1 : Nat)
          ∧ (i 1 : Nat) < win3_5.index t3_15 1 * win3_5.size 1 + win3_5.xsize (grid3.coords t3_15) 1
        rw [(BiasRow.idx5 t3_15).2, show win3_5.xsize (grid3.coords t3_15) 1 = 2048 from by decide +kernel]
        omega⟩

end Cert.KernelIdeal.Val

end
-- ==== Proof.Query.lean ====
/-
  The query call: from the contents `V` its region is entered with, the result array ends holding
  `test · Wnᵀ + bn + test` entry by entry — each grid point writes the 512 rows of its block, and the eight blocks tile
  the array.
-/
import proofs.«152635_j12223476924503_1_alg».proof.Proof.Gen.KernelIdeal.Frame
import proofs.«152635_j12223476924503_1_alg».proof.Proof.Spec
import proofs.«152635_j12223476924503_1_alg».proof.Proof.LibDotForms
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

namespace QueryRegion

/-- The all-zero offset of a rank-2 access. -/
theorem zero_offset : (![0, 0] : Fin 2 → Nat) = fun _ => 0 := funext fun a => by fin_cases a <;> rfl

/-- Where each window's block sits at grid point `t`: the tokens' and the result's block is block row `t`;
    the weights and the bias row are taken whole. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's arithmetic at entry (p, q) of its block: row p of the tokens against row q of the weights, plus the
    bias at q, plus the token entry itself. -/
theorem pay_apply (x0 : Vec Ideal S512x2048 .f32) (x1 : Vec Ideal S2048x2048 .bf16) (x2 : Vec Ideal S1x2048 .f32)
    (p : Fin 512) (q : Fin 2048) :
    k4_pay1 x0 x1 x2 (ix2 p q) = (∑ i : Fin 2048, x0 (ix2 p i) * x1 (ix2 q i)) + x2 (ix2 0 q) + x0 (ix2 p q) := by
  unfold k4_pay1
  simp only [shapeCast_self]
  rw [addf_apply, addf_apply]
  rw [broadcastTo_1b_ab_apply]
  rw [DotForms.abt_matmul_zero_apply (M := 512) (K := 2048) (N := 2048) ⟨rfl, rfl, rfl, rfl, rfl, rfl⟩]
  rfl

/-- The tokens' block at grid point `t` is rows `512 t … 512 t + 511` of the tokens. -/
theorem test_block (c : Dev nD) (t : Fin cfg4.N) (p : Fin 512) (i : Fin 2048) (r : Fin 4096) (hr : r.val = 512 * t.val + p.val) :
    (iblk4 V c 0 t : Vec Ideal S512x2048 .f32) (ix2 p i) = (V c main_v6 : S4096x2048.Idx → EReal) (ix2 r i) := by
  obtain ⟨e0, e1, -⟩ := block_index t
  unfold iblk4
  rw [View.read_apply]
  show V c main_v6 _ = V c main_v6 _
  congr 1
  funext a
  apply Fin.ext
  match a with
  | ⟨0, _⟩ => show win4_0.index t (0 : Fin 2) * 512 + 1 * p.val = r.val; rw [e0, hr]; omega
  | ⟨1, _⟩ => show win4_0.index t (1 : Fin 2) * 2048 + 1 * i.val = i.val; rw [e1]; omega

/-- The weights' block at every grid point is the whole array. -/
theorem weight_block (c : Dev nD) (t : Fin cfg4.N) (q : Fin 2048) (i : Fin 2048) :
    (iblk4 V c 1 t : Vec Ideal S2048x2048 .bf16) (ix2 q i) = (V c main_v15 : S2048x2048.Idx → EReal) (ix2 q i) := by
  obtain ⟨-, -, e0, e1, -⟩ := block_index t
  unfold iblk4
  rw [View.read_apply]
  show V c main_v15 _ = V c main_v15 _
  congr 1
  funext a
  apply Fin.ext
  match a with
  | ⟨0, _⟩ => show win4_1.index t (0 : Fin 2) * 2048 + 1 * q.val = q.val; rw [e0]; omega
  | ⟨1, _⟩ => show win4_1.index t (1 : Fin 2) * 2048 + 1 * i.val = i.val; rw [e1]; omega

/-- The bias row's block at every grid point is the whole row. -/
theorem bias_block (c : Dev nD) (t : Fin cfg4.N) (q : Fin 2048) :
    (iblk4 V c 2 t : Vec Ideal S1x2048 .f32) (ix2 0 q) = (V c main_v16 : S1x2048.Idx → EReal) (ix2 0 q) := by
  obtain ⟨-, -, -, -, e0, e1, -⟩ := block_index t
  unfold iblk4
  rw [View.read_apply]
  show V c main_v16 _ = V c main_v16 _
  congr 1
  funext a
  apply Fin.ext
  match a with
  | ⟨0, _⟩ => show win4_2.index t (0 : Fin 2) * 1 + 1 * 0 = 0; rw [e0]
  | ⟨1, _⟩ => show win4_2.index t (1 : Fin 2) * 2048 + 1 * q.val = q.val; rw [e1]; omega

/-- The query at entry (r, q), written out. -/
theorem query_apply (A : TTT.SX.Idx → EReal) (B : TTT.SM.Idx → EReal) (C : TTT.SR.Idx → EReal) (r : Fin 4096) (q : Fin 2048) :
    TTT.query A B C (ix2 r q) = (∑ k : Fin 2048, A (ix2 r k) * B (ix2 q k)) + C (ix2 0 q) + A (ix2 r q) := rfl

/-- Entry (p, q) of the result's block at grid point `t` is entry (512 t + p, q) of the result. -/
theorem result_emb (t : Fin cfg4.N) (p : Fin 512) (q : Fin 2048) (r : Fin 4096) (hr : r.val = 512 * t.val + p.val) :
    ((cfg4.win 3).blk t).view.emb (ix2 p q) = (ix2 r q : S4096x2048.Idx) := by
  obtain ⟨-, -, -, -, -, -, e0, e1⟩ := block_index t
  funext a
  apply Fin.ext
  match a with
  | ⟨0, _⟩ => show win4_3.index t (0 : Fin 2) * 512 + 1 * p.val = r.val; rw [e0, hr]; omega
  | ⟨1, _⟩ => show win4_3.index t (1 : Fin 2) * 2048 + 1 * q.val = q.val; rw [e1]; omega

/-- What grid point `t` writes back is block row `t` of the query of the region's three input arrays. -/
theorem flushed_eq (c : Dev nD) (t : Fin cfg4.N) :
    (dat4 V c).flushed 3 t
      = ((cfg4.win 3).blk t).view.read (Elt Ideal) (TTT.query (V c main_v6) (V c main_v15) (V c main_v16)) := by
  show (cfg4.win 3).cut (grid4.coords t) ((dat4 V c).after 3 t) = _
  rw [after4_3]
  unfold out4_3
  rw [View.canon_unit_zero zero_offset]
  simp only [View.ld_unit_zero (S := S512x2048) zero_offset, View.ld_unit_zero (S := S2048x2048) zero_offset,
    View.ld_unit_zero (S := S1x2048) zero_offset]
  funext j
  obtain ⟨p, q, rfl⟩ : ∃ (p : Fin 512) (q : Fin 2048), j = ix2 p q := ⟨j 0, j 1, eq_ix2 (n0 := 512) (n1 := 2048) j⟩
  have ht : t.val < 8 := lt_of_lt_of_eq t.isLt N_4
  have hr : (⟨512 * t.val + p.val, by have := p.isLt; omega⟩ : Fin 4096).val = 512 * t.val + p.val := rfl
  generalize (⟨512 * t.val + p.val, by have := p.isLt; omega⟩ : Fin 4096) = r at hr
  show k4_pay1 (iblk4 V c 0 t) (iblk4 V c 1 t) (iblk4 V c 2 t) (ix2 p q)
    = TTT.query (V c main_v6) (V c main_v15) (V c main_v16) (((cfg4.win 3).blk t).view.emb (ix2 p q))
  rw [result_emb t p q r hr, query_apply]
  refine (pay_apply (iblk4 V c 0 t) (iblk4 V c 1 t) (iblk4 V c 2 t) p q).trans ?_
  rw [test_block V c t p q r hr, bias_block V c t q]
  refine congrArg (· + _) (congrArg (· + _) (Finset.sum_congr rfl fun i _ => ?_))
  rw [test_block V c t p i r hr, weight_block V c t q i]

/-- An index of the result is in grid point `t`'s block iff each coordinate is in the block's range on its axis. -/
theorem mem_block (t : Fin cfg4.N) (i : S4096x2048.Idx) :
    i ∈ ((cfg4.win 3).blk t).view.set
      ↔ ∀ a : Fin 2, win4_3.index t a * S512x2048.size a ≤ (i a).val
          ∧ (i a).val < win4_3.index t a * S512x2048.size a + S512x2048.size a := by
  show i ∈ ((View.whole main_v17).slice (win4_3.rect t)).set ↔ _
  rw [View.set_slice_whole, Rect.mem_set_unit]
  exact Iff.rfl

/-- Row r of the result lies in the block of grid point `r / 512`, and every grid point writes its block back: the
    eight blocks tile the 4096 rows. -/
theorem rows_covered (i : S4096x2048.Idx) :
    ∃ t : Fin cfg4.N, (cfg4.win 3).flush t = true ∧ i ∈ ((cfg4.win 3).blk t).view.set := by
  have h0 : (i 0).val < 4096 := (i 0).isLt
  have h1 : (i 1).val < 2048 := (i 1).isLt
  have hN : cfg4.N = 8 := N_4
  let t : Fin cfg4.N := ⟨(i 0).val / 512, by rw [hN]; omega⟩
  have htv : t.val = (i 0).val / 512 := rfl
  obtain ⟨-, -, -, -, -, -, e0, e1⟩ := block_index t
  refine ⟨t, flush4_3 t, ?_⟩
  rw [mem_block]
  intro a
  match a with
  | ⟨0, _⟩ =>
    show win4_3.index t (0 : Fin 2) * 512 ≤ (i 0).val ∧ (i 0).val < win4_3.index t (0 : Fin 2) * 512 + 512
    rw [e0, htv]; omega
  | ⟨1, _⟩ =>
    show win4_3.index t (1 : Fin 2) * 2048 ≤ (i 1).val ∧ (i 1).val < win4_3.index t (1 : Fin 2) * 2048 + 2048
    rw [e1]; omega

end QueryRegion

/-- After the region the result array is `TTT.query` of the region's three input arrays as it found them. -/
theorem query_final (c : Dev nD) :
    (dat4 V c).arrAt 3 cfg4.N = TTT.query (V c main_v6) (V c main_v15) (V c main_v16) :=
  (dat4 V c).arrAt_eq_of_cover 3 _ (fun t _ => QueryRegion.flushed_eq V c t) QueryRegion.rows_covered

end Cert.KernelIdeal.Val

end
-- ==== Proof.Chain.lean ====
/-
  The whole program's result: walking the contents of the buffers from segment to segment — the casts before the first
  call, the three projections, the cast and the row form of the bias, the gradient call, the step of gradient descent,
  the query call — the result array ends holding `TTT.G` of the eight argument arrays as launched.
-/
import proofs.«152635_j12223476924503_1_alg».proof.Proof.Proj0
import proofs.«152635_j12223476924503_1_alg».proof.Proof.Proj1
import proofs.«152635_j12223476924503_1_alg».proof.Proof.Proj2
import proofs.«152635_j12223476924503_1_alg».proof.Proof.Grad
import proofs.«152635_j12223476924503_1_alg».proof.Proof.GradB
import proofs.«152635_j12223476924503_1_alg».proof.Proof.Query
import Idealize.ShloMosaic.Lib.StableHlo.Run

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable (m : (ℓ : Loc nD τ sig) → Buf (Elt Ideal) ℓ) (ρ : Dev nD → PrngReg)

/-! ## Buffers a host stretch does not write keep their contents -/

theorem W1_keep (c : Dev nD) (b : Ref sig .tc)
    (hb : b ≠ main_v0 ∧ b ≠ main_v1 ∧ b ≠ main_v2 ∧ b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))

theorem W5_keep (c : Dev nD) (b : Ref sig .tc) (hb : b ≠ main_v7 ∧ b ≠ main_v8) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne hb.1, StableHlo.devRef_ne_of_ne hb.2⟩))

theorem W7_keep (c : Dev nD) (b : Ref sig .tc)
    (hb : b ≠ main_v10 ∧ b ≠ main_v11 ∧ b ≠ main_v12 ∧ b ≠ main_v13 ∧ b ≠ main_v14 ∧ b ≠ main_v15 ∧ b ≠ main_v16) :
    W7 m ρ c (Proc.devRef .tc b) = W6 m ρ c (Proc.devRef .tc b) :=
  StableHlo.after_of_forall_not_mem (b := Proc.devRef .tc b) _ _ (List.forall_iff_forall_mem.mp (by
    simp only [hostOps4, List.Forall, StableHlo.unary_writes, StableHlo.binary_writes, StableHlo.reshape_writes,
      Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1,
      StableHlo.devRef_ne_of_ne hb.2.2.2.2.2.1, StableHlo.devRef_ne_of_ne hb.2.2.2.2.2.2⟩))

/-! ## The arguments at the boundaries where they are read -/

theorem W4_arg4 (c : Dev nD) : W4 m ρ c (Proc.devRef .tc main_arg4) = (m ((c : Thread nD τ).loc main_arg4)) := by
  rw [W4_of_ne m ρ c main_arg4 (by decide), W3_of_ne m ρ c main_arg4 (by decide), W2_of_ne m ρ c main_arg4 (by decide),
    W1_keep m ρ c main_arg4 (by decide)]

theorem W4_arg5 (c : Dev nD) : W4 m ρ c (Proc.devRef .tc main_arg5) = (m ((c : Thread nD τ).loc main_arg5)) := by
  rw [W4_of_ne m ρ c main_arg5 (by decide), W3_of_ne m ρ c main_arg5 (by decide), W2_of_ne m ρ c main_arg5 (by decide),
    W1_keep m ρ c main_arg5 (by decide)]

theorem W4_arg6 (c : Dev nD) : W4 m ρ c (Proc.devRef .tc main_arg6) = (m ((c : Thread nD τ).loc main_arg6)) := by
  rw [W4_of_ne m ρ c main_arg6 (by decide), W3_of_ne m ρ c main_arg6 (by decide), W2_of_ne m ρ c main_arg6 (by decide),
    W1_keep m ρ c main_arg6 (by decide)]

theorem W4_arg7 (c : Dev nD) : W4 m ρ c (Proc.devRef .tc main_arg7) = (m ((c : Thread nD τ).loc main_arg7)) := by
  rw [W4_of_ne m ρ c main_arg7 (by decide), W3_of_ne m ρ c main_arg7 (by decide), W2_of_ne m ρ c main_arg7 (by decide),
    W1_keep m ρ c main_arg7 (by decide)]

theorem W6_arg4 (c : Dev nD) : W6 m ρ c (Proc.devRef .tc main_arg4) = (m ((c : Thread nD τ).loc main_arg4)) := by
  rw [W6_of_ne m ρ c main_arg4 (by decide), W5_keep m ρ c main_arg4 (by decide), W4_arg4]

theorem W6_arg5 (c : Dev nD) : W6 m ρ c (Proc.devRef .tc main_arg5) = (m ((c : Thread nD τ).loc main_arg5)) := by
  rw [W6_of_ne m ρ c main_arg5 (by decide), W5_keep m ρ c main_arg5 (by decide), W4_arg5]

theorem W6_arg6 (c : Dev nD) : W6 m ρ c (Proc.devRef .tc main_arg6) = (m ((c : Thread nD τ).loc main_arg6)) := by
  rw [W6_of_ne m ρ c main_arg6 (by decide), W5_keep m ρ c main_arg6 (by decide), W4_arg6]

theorem W6_arg7 (c : Dev nD) : W6 m ρ c (Proc.devRef .tc main_arg7) = (m ((c : Thread nD τ).loc main_arg7)) := by
  rw [W6_of_ne m ρ c main_arg7 (by decide), W5_keep m ρ c main_arg7 (by decide), W4_arg7]

/-! ## Before the first call: the four casts are the identity on the extended reals -/

theorem cast0_eq (c : Dev nD) : (V1 m ρ c main_v0 : TTT.SX.Idx → EReal) = (m ((c : Thread nD τ).loc main_arg0)) := by
  show StableHlo.after hostOps0 _ (Proc.devRef .tc main_v0) = _
  after_results
  rfl

theorem cast1_eq (c : Dev nD) : (V1 m ρ c main_v1 : TTT.SM.Idx → EReal) = (m ((c : Thread nD τ).loc main_arg1)) := by
  show StableHlo.after hostOps0 _ (Proc.devRef .tc main_v1) = _
  after_results
  rfl

theorem cast2_eq (c : Dev nD) : (V1 m ρ c main_v2 : TTT.SM.Idx → EReal) = (m ((c : Thread nD τ).loc main_arg2)) := by
  show StableHlo.after hostOps0 _ (Proc.devRef .tc main_v2) = _
  after_results
  rfl

theorem cast3_eq (c : Dev nD) : (V1 m ρ c main_v3 : TTT.SM.Idx → EReal) = (m ((c : Thread nD τ).loc main_arg3)) := by
  show StableHlo.after hostOps0 _ (Proc.devRef .tc main_v3) = _
  after_results
  rfl

/-! ## The three projections

The tokens' array is an input window of the first two calls; an input window's array is never written back. -/

theorem tokens_W2 (c : Dev nD) : (W2 m ρ c (Proc.devRef .tc main_v0) : TTT.SX.Idx → EReal) = (m ((c : Thread nD τ).loc main_arg0)) :=
  ((W2_arr m ρ c 0).trans (((dat0 (V1 m ρ) c).arrAt_in 0 rfl cfg0.N).trans (A_eq0 (V1 m ρ) c 0))).trans (cast0_eq m ρ c)

theorem tokens_W3 (c : Dev nD) : (W3 m ρ c (Proc.devRef .tc main_v0) : TTT.SX.Idx → EReal) = (m ((c : Thread nD τ).loc main_arg0)) :=
  ((W3_arr m ρ c 0).trans (((dat1 (V2 m ρ) c).arrAt_in 0 rfl cfg1.N).trans (A_eq1 (V2 m ρ) c 0))).trans (tokens_W2 m ρ c)

theorem train_W2 (c : Dev nD) : (W2 m ρ c (Proc.devRef .tc main_v4) : TTT.SX.Idx → EReal) = (TTT.proj (m ((c : Thread nD τ).loc main_arg0)) (m ((c : Thread nD τ).loc main_arg1))) := by
  refine (W2_arr m ρ c 2).trans ((proj0_final (V1 m ρ) c).trans ?_)
  rw [cast0_eq, cast1_eq]

theorem label_W3 (c : Dev nD) : (W3 m ρ c (Proc.devRef .tc main_v5) : TTT.SX.Idx → EReal) = (TTT.proj (m ((c : Thread nD τ).loc main_arg0)) (m ((c : Thread nD τ).loc main_arg3))) := by
  refine (W3_arr m ρ c 2).trans ((proj1_final (V2 m ρ) c).trans ?_)
  have e0 : (V2 m ρ c main_v0 : TTT.SX.Idx → EReal) = (m ((c : Thread nD τ).loc main_arg0)) := tokens_W2 m ρ c
  have e3 : (V2 m ρ c main_v3 : TTT.SM.Idx → EReal) = (m ((c : Thread nD τ).loc main_arg3)) := by
    show W2 m ρ c (Proc.devRef .tc main_v3) = _
    rw [W2_of_ne m ρ c main_v3 (by decide)]; exact cast3_eq m ρ c
  rw [e0, e3]

theorem test_W4 (c : Dev nD) : (W4 m ρ c (Proc.devRef .tc main_v6) : TTT.SX.Idx → EReal) = (TTT.proj (m ((c : Thread nD τ).loc main_arg0)) (m ((c : Thread nD τ).loc main_arg2))) := by
  refine (W4_arr m ρ c 2).trans ((proj2_final (V3 m ρ) c).trans ?_)
  have e0 : (V3 m ρ c main_v0 : TTT.SX.Idx → EReal) = (m ((c : Thread nD τ).loc main_arg0)) := tokens_W3 m ρ c
  have e2 : (V3 m ρ c main_v2 : TTT.SM.Idx → EReal) = (m ((c : Thread nD τ).loc main_arg2)) := by
    show W3 m ρ c (Proc.devRef .tc main_v2) = _
    rw [W3_of_ne m ρ c main_v2 (by decide), W2_of_ne m ρ c main_v2 (by decide)]; exact cast2_eq m ρ c
  rw [e0, e2]

/-! ## Entering the gradient call -/

theorem train_V5 (c : Dev nD) : (V5 m ρ c main_v4 : TTT.SX.Idx → EReal) = (TTT.proj (m ((c : Thread nD τ).loc main_arg0)) (m ((c : Thread nD τ).loc main_arg1))) := by
  show W5 m ρ c (Proc.devRef .tc main_v4) = _
  rw [W5_keep m ρ c main_v4 (by decide), W4_of_ne m ρ c main_v4 (by decide), W3_of_ne m ρ c main_v4 (by decide)]
  exact train_W2 m ρ c

theorem label_V5 (c : Dev nD) : (V5 m ρ c main_v5 : TTT.SX.Idx → EReal) = (TTT.proj (m ((c : Thread nD τ).loc main_arg0)) (m ((c : Thread nD τ).loc main_arg3))) := by
  show W5 m ρ c (Proc.devRef .tc main_v5) = _
  rw [W5_keep m ρ c main_v5 (by decide), W4_of_ne m ρ c main_v5 (by decide)]
  exact label_W3 m ρ c

theorem weights_V5 (c : Dev nD) : (V5 m ρ c main_v7 : TTT.SM.Idx → EReal) = (m ((c : Thread nD τ).loc main_arg4)) := by
  show StableHlo.after hostOps3 _ (Proc.devRef .tc main_v7) = _
  after_results
  rw [W4_arg4]
  rfl

theorem biasRow_V5 (c : Dev nD) : (V5 m ρ c main_v8 : TTT.SR.Idx → EReal) = (TTT.asRow (m ((c : Thread nD τ).loc main_arg5))) := by
  show StableHlo.after hostOps3 _ (Proc.devRef .tc main_v8) = _
  after_results
  rw [W4_arg5]
  funext i
  obtain ⟨u, j, rfl⟩ : ∃ (u : Fin 1) (j : Fin 2048), i = ix2 u j := ⟨i 0, i 1, eq_ix2 i⟩
  exact shapeCast_a_1a_apply _ _ u j

/-! ## The two gradients -/

theorem gradW_W6 (c : Dev nD) : (W6 m ρ c (Proc.devRef .tc main_v9_0) : TTT.SM.Idx → EReal) = (TTT.gradW (TTT.proj (m ((c : Thread nD τ).loc main_arg0)) (m ((c : Thread nD τ).loc main_arg1))) (TTT.proj (m ((c : Thread nD τ).loc main_arg0)) (m ((c : Thread nD τ).loc main_arg3))) (m ((c : Thread nD τ).loc main_arg4)) (TTT.asRow (m ((c : Thread nD τ).loc main_arg5)))) := by
  refine (W6_arr m ρ c 4).trans ((grad_final_W (V5 m ρ) c).trans ?_)
  rw [train_V5, label_V5, weights_V5, biasRow_V5]

theorem gradB_W6 (c : Dev nD) : (W6 m ρ c (Proc.devRef .tc main_v9_1) : TTT.SR.Idx → EReal) = (TTT.gradB (TTT.proj (m ((c : Thread nD τ).loc main_arg0)) (m ((c : Thread nD τ).loc main_arg1))) (TTT.proj (m ((c : Thread nD τ).loc main_arg0)) (m ((c : Thread nD τ).loc main_arg3))) (m ((c : Thread nD τ).loc main_arg4)) (TTT.asRow (m ((c : Thread nD τ).loc main_arg5)))) := by
  refine (W6_arr m ρ c 5).trans ((grad_final_b (V5 m ρ) c).trans ?_)
  rw [train_V5, label_V5, weights_V5, biasRow_V5]

/-! ## The step of gradient descent, and entering the query call -/

theorem test_V7 (c : Dev nD) : (V7 m ρ c main_v6 : TTT.SX.Idx → EReal) = (TTT.proj (m ((c : Thread nD τ).loc main_arg0)) (m ((c : Thread nD τ).loc main_arg2))) := by
  show W7 m ρ c (Proc.devRef .tc main_v6) = _
  rw [W7_keep m ρ c main_v6 (by decide), W6_of_ne m ρ c main_v6 (by decide), W5_keep m ρ c main_v6 (by decide)]
  exact test_W4 m ρ c

theorem newWeights_V7 (c : Dev nD) :
    (V7 m ρ c main_v15 : TTT.SM.Idx → EReal) = TTT.stepW (m ((c : Thread nD τ).loc main_arg4)) (m ((c : Thread nD τ).loc main_arg6)) (TTT.gradW (TTT.proj (m ((c : Thread nD τ).loc main_arg0)) (m ((c : Thread nD τ).loc main_arg1))) (TTT.proj (m ((c : Thread nD τ).loc main_arg0)) (m ((c : Thread nD τ).loc main_arg3))) (m ((c : Thread nD τ).loc main_arg4)) (TTT.asRow (m ((c : Thread nD τ).loc main_arg5)))) := by
  show StableHlo.after hostOps4 _ (Proc.devRef .tc main_v15) = _
  after_results
  rw [W6_arg4, W6_arg6, gradW_W6]
  rfl

theorem newBiasRow_V7 (c : Dev nD) :
    (V7 m ρ c main_v16 : TTT.SR.Idx → EReal) = TTT.stepB (m ((c : Thread nD τ).loc main_arg5)) (m ((c : Thread nD τ).loc main_arg7)) (TTT.gradB (TTT.proj (m ((c : Thread nD τ).loc main_arg0)) (m ((c : Thread nD τ).loc main_arg1))) (TTT.proj (m ((c : Thread nD τ).loc main_arg0)) (m ((c : Thread nD τ).loc main_arg3))) (m ((c : Thread nD τ).loc main_arg4)) (TTT.asRow (m ((c : Thread nD τ).loc main_arg5)))) := by
  show StableHlo.after hostOps4 _ (Proc.devRef .tc main_v16) = _
  after_results
  rw [W6_arg5, W6_arg7, gradB_W6]
  funext i
  obtain ⟨u, j, rfl⟩ : ∃ (u : Fin 1) (j : Fin 2048), i = ix2 u j := ⟨i 0, i 1, eq_ix2 i⟩
  refine (shapeCast_a_1a_apply _ _ u j).trans ?_
  exact congrArg
    (fun z : EReal => (fun b lr : TTT.SV.Idx → EReal => b (ix1 j) - lr (ix1 j) * z) (m ((c : Thread nD τ).loc main_arg5)) (m ((c : Thread nD τ).loc main_arg7)))
    (shapeCast_1a_a_apply _ _ j)

/-- The result array at the last segment boundary is `TTT.G` of the argument arrays as launched. -/
theorem result_eq (c : Dev nD) :
    W8 m ρ c (Proc.devRef .tc main_v17)
      = TTT.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W8_arr m ρ c 3).trans ((query_final (V7 m ρ) c).trans ?_)
  rw [test_V7, newWeights_V7, newBiasRow_V7]
  rfl

end Cert.KernelIdeal.Val

end
-- ==== Proof.RefSide.lean ====
/-
  The reference program's result, read entry by entry, is the function `TTT.G` of its argument arrays: its three
  products are the projections, its error is `TTT.err`, its two gradients are the sums over all 4096 tokens scaled by
  the mean's factor (the factor written on the left there, on the right in `TTT`: the product commutes), its step and
  its last product with the residual are `TTT.stepW`, `TTT.stepB` and `TTT.query`.
-/
import proofs.«152635_j12223476924503_1_alg».proof.Proof.Gen.ReferenceIdeal.Run
import proofs.«152635_j12223476924503_1_alg».proof.Proof.Gen.ReferenceIdeal.Read
import proofs.«152635_j12223476924503_1_alg».proof.Proof.Spec
import proofs.«152635_j12223476924503_1_alg».proof.Proof.LibPlainDot
import Idealize.ShloMosaic.Lib.Pipeline.Value
import Idealize.ShloMosaic.Lib.ValueLayout

noncomputable section

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx
open scoped BigOperators

/-- Arrays of the four kinds the reference handles, as entry functions into the extended reals. -/
abbrev AX := (⟨S4096x2048, .f32⟩ : BufTy).Contents (Elt Ideal)
abbrev AM := (⟨S2048x2048, .f32⟩ : BufTy).Contents (Elt Ideal)
abbrev AV := (⟨S2048, .f32⟩ : BufTy).Contents (Elt Ideal)

/-! ### The composed index maps are the coordinate constructors

Each map below sends an output position to the operand position it reads; written by coordinates it is a pair
(or a single coordinate) of the output's coordinates and the summation index. -/

theorem lidx0 (i : S4096x2048.Idx) (k : Fin 2048) : lidx_main_v0 i k = ix2 (i 0) k :=
  funext fun a => Fin.ext (by match a with | ⟨0, _⟩ => rfl | ⟨1, _⟩ => rfl)
theorem ridx0 (i : S4096x2048.Idx) (k : Fin 2048) : ridx_main_v0 i k = ix2 k (i 1) :=
  funext fun a => Fin.ext (by match a with | ⟨0, _⟩ => rfl | ⟨1, _⟩ => rfl)
theorem lidx1 (i : S4096x2048.Idx) (k : Fin 2048) : lidx_main_v1 i k = ix2 (i 0) k :=
  funext fun a => Fin.ext (by match a with | ⟨0, _⟩ => rfl | ⟨1, _⟩ => rfl)
theorem ridx1 (i : S4096x2048.Idx) (k : Fin 2048) : ridx_main_v1 i k = ix2 k (i 1) :=
  funext fun a => Fin.ext (by match a with | ⟨0, _⟩ => rfl | ⟨1, _⟩ => rfl)
theorem lidx2 (i : S4096x2048.Idx) (k : Fin 2048) : lidx_main_v2 i k = ix2 (i 0) k :=
  funext fun a => Fin.ext (by match a with | ⟨0, _⟩ => rfl | ⟨1, _⟩ => rfl)
theorem ridx2 (i : S4096x2048.Idx) (k : Fin 2048) : ridx_main_v2 i k = ix2 k (i 1) :=
  funext fun a => Fin.ext (by match a with | ⟨0, _⟩ => rfl | ⟨1, _⟩ => rfl)

/-- The prediction's product reads the training view along row `r` … -/
theorem lidx5 (r : Fin 4096) (j k : Fin 2048) : lidx_main_v5 (ix2 r j) k = ix2 r k :=
  funext fun a => Fin.ext (by match a with | ⟨0, _⟩ => rfl | ⟨1, _⟩ => rfl)
/-- … and the transposed weights at `(k, j)`, that is the weights at `(j, k)`. -/
theorem idx4_ridx5 (r : Fin 4096) (j k : Fin 2048) : idx_main_v4 (ridx_main_v5 (ix2 r j) k) = ix2 j k :=
  funext fun a => Fin.ext (by match a with | ⟨0, _⟩ => rfl | ⟨1, _⟩ => rfl)
/-- The bias spread over the rows reads the bias at the column. -/
theorem idx6_idx7 (r : Fin 4096) (j : Fin 2048) : idx_main_v6 (idx_main_v7 (ix2 r j)) = ix1 j :=
  funext fun a => Fin.ext (by match a with | ⟨0, _⟩ => rfl)

/-- The weight gradient's product at `(a, b)` reads the transposed error at `(a, k)`, that is the error at `(k, a)` … -/
theorem idx10_lidx11 (a b : Fin 2048) (k : Fin 4096) : idx_main_v10 (lidx_main_v11 (ix2 a b) k) = ix2 k a :=
  funext fun a => Fin.ext (by match a with | ⟨0, _⟩ => rfl | ⟨1, _⟩ => rfl)
/-- … and the training view at `(k, b)`. -/
theorem ridx11 (a b : Fin 2048) (k : Fin 4096) : ridx_main_v11 (ix2 a b) k = ix2 k b :=
  funext fun a => Fin.ext (by match a with | ⟨0, _⟩ => rfl | ⟨1, _⟩ => rfl)
/-- The column sum at `j` reads the error down column `j`. -/
theorem idx14 (j : Fin 2048) (k : Fin 4096) : idx_main_v14 (ix1 j) k = ix2 k j :=
  funext fun a => Fin.ext (by match a with | ⟨0, _⟩ => rfl | ⟨1, _⟩ => rfl)

/-- The last product reads the test view along row `p` … -/
theorem lidx22 (p : Fin 4096) (q k : Fin 2048) : lidx_main_v22 (ix2 p q) k = ix2 p k :=
  funext fun a => Fin.ext (by match a with | ⟨0, _⟩ => rfl | ⟨1, _⟩ => rfl)
/-- … and the transposed new weights at `(k, q)`, that is the new weights at `(q, k)`. -/
theorem idx21_ridx22 (p : Fin 4096) (q k : Fin 2048) : idx_main_v21 (ridx_main_v22 (ix2 p q) k) = ix2 q k :=
  funext fun a => Fin.ext (by match a with | ⟨0, _⟩ => rfl | ⟨1, _⟩ => rfl)
/-- The new bias spread over the rows reads the new bias at the column. -/
theorem idx23_idx24 (p : Fin 4096) (q : Fin 2048) : idx_main_v23 (idx_main_v24 (ix2 p q)) = ix1 q :=
  funext fun a => Fin.ext (by match a with | ⟨0, _⟩ => rfl)

/-! ### The three projections -/

theorem v0_eq (x0 : AX) (x1 : AM) : val_main_v0 (F := Ideal) x0 x1 = TTT.proj x0 x1 := by
  funext i
  rw [val_main_v0_apply]
  unfold TTT.proj
  exact Finset.sum_congr rfl fun k _ => by rw [lidx0, ridx0]; rfl

theorem v1_eq (x0 : AX) (x3 : AM) : val_main_v1 (F := Ideal) x0 x3 = TTT.proj x0 x3 := by
  funext i
  rw [val_main_v1_apply]
  unfold TTT.proj
  exact Finset.sum_congr rfl fun k _ => by rw [lidx1, ridx1]; rfl

theorem v2_eq (x0 : AX) (x2 : AM) : val_main_v2 (F := Ideal) x0 x2 = TTT.proj x0 x2 := by
  funext i
  rw [val_main_v2_apply]
  unfold TTT.proj
  exact Finset.sum_congr rfl fun k _ => by rw [lidx2, ridx2]; rfl

/-! ### The error -/

theorem err_eq (x0 : AX) (x1 x3 x4 : AM) (x5 : AV) (r : Fin 4096) (j : Fin 2048) :
    val_main_v9 (F := Ideal) x0 x1 x3 x4 x5 (ix2 r j)
      = TTT.err (TTT.proj x0 x1) (TTT.proj x0 x3) x4 (TTT.asRow x5) r j := by
  rw [val_main_v9_apply, val_main_v8_apply, val_main_v3_apply, val_main_v5_apply, val_main_v7_apply,
    val_main_v6_apply, v0_eq, v1_eq, idx6_idx7]
  simp only [val_main_v4_apply, lidx5, idx4_ridx5, Ideal.addf_def, Ideal.subf_def]
  rfl

/-! ### The two gradients -/

theorem gradW_eq (x0 : AX) (x1 x3 x4 : AM) (x5 : AV) :
    val_main_v13 (F := Ideal) x0 x1 x3 x4 x5
      = TTT.gradW (TTT.proj x0 x1) (TTT.proj x0 x3) x4 (TTT.asRow x5) := by
  funext i
  obtain ⟨a, b, rfl⟩ : ∃ (a b : Fin 2048), i = ix2 a b := ⟨i 0, i 1, eq_ix2 i⟩
  rw [val_main_v13_apply, val_main_v12_apply, val_main_cst_apply, val_main_v11_apply, v0_eq]
  simp only [val_main_v10_apply, idx10_lidx11, ridx11, err_eq, Ideal.mulf_def, Ideal.ofBits_def]
  exact mul_comm (Ideal.ofBits .f32 0x34800000#32 : EReal) _

theorem gradB_eq (x0 : AX) (x1 x3 x4 : AM) (x5 : AV) (j : Fin 2048) :
    val_main_v16 (F := Ideal) x0 x1 x3 x4 x5 (ix1 j)
      = TTT.gradB (TTT.proj x0 x1) (TTT.proj x0 x3) x4 (TTT.asRow x5) (ix2 0 j) := by
  rw [val_main_v16_apply, val_main_v15_apply, val_main_cst_1_apply, val_main_v14_apply, val_main_cst_0_apply]
  simp only [idx14, err_eq, Ideal.mulf_def, Ideal.ofBits_def, Ideal.ofBits_zero_f32, zero_add]
  exact mul_comm (Ideal.ofBits .f32 0x34800000#32 : EReal) _

/-! ### The step -/

theorem stepW_eq (x0 : AX) (x1 x3 x4 : AM) (x5 : AV) (x6 : AM) :
    val_main_v18 (F := Ideal) x0 x1 x3 x4 x5 x6
      = TTT.stepW x4 x6 (TTT.gradW (TTT.proj x0 x1) (TTT.proj x0 x3) x4 (TTT.asRow x5)) := by
  funext i
  rw [val_main_v18_apply, val_main_v17_apply, gradW_eq]
  rfl

theorem stepB_eq (x0 : AX) (x1 x3 x4 : AM) (x5 x7 : AV) (j : Fin 2048) :
    val_main_v20 (F := Ideal) x0 x1 x3 x4 x5 x7 (ix1 j)
      = TTT.stepB x5 x7 (TTT.gradB (TTT.proj x0 x1) (TTT.proj x0 x3) x4 (TTT.asRow x5)) (ix2 0 j) := by
  rw [val_main_v20_apply, val_main_v19_apply, gradB_eq]
  rfl

/-! ### The result -/

/-- The reference's last stage, at the exact instance, is `TTT.G` of the eight arguments. -/
theorem ref_eq (x0 : (⟨S4096x2048, .f32⟩ : BufTy).Contents (Elt Ideal)) (x1 x2 x3 x4 : (⟨S2048x2048, .f32⟩ : BufTy).Contents (Elt Ideal))
    (x5 : (⟨S2048, .f32⟩ : BufTy).Contents (Elt Ideal)) (x6 : (⟨S2048x2048, .f32⟩ : BufTy).Contents (Elt Ideal))
    (x7 : (⟨S2048, .f32⟩ : BufTy).Contents (Elt Ideal)) :
    val_main_v26 (F := Ideal) x0 x1 x2 x3 x4 x5 x6 x7 = TTT.G x0 x1 x2 x3 x4 x5 x6 x7 := by
  funext i
  obtain ⟨p, q, rfl⟩ : ∃ (p : Fin 4096) (q : Fin 2048), i = ix2 p q := ⟨i 0, i 1, eq_ix2 i⟩
  rw [val_main_v26_apply, val_main_v25_apply, val_main_v22_apply, val_main_v24_apply, val_main_v23_apply,
    idx23_idx24, stepB_eq, v2_eq]
  simp only [val_main_v21_apply, lidx22, idx21_ridx22, stepW_eq, Ideal.addf_def]
  rfl

end Cert.ReferenceIdeal.RefValue

end
-- ==== Proof.lean ====
/-
  One inner step of test-time training: the kernel program (three projections, a gradient accumulated over sixteen
  blocks of 256 tokens, a step of gradient descent on the host, a query) against the plain reference.

  Both programs compute, entry by entry on the extended reals, the same function `TTT.G` of the eight argument arrays
  (Proof/Spec.lean).  The kernel's result array is read off its run segment by segment (Proof/Chain.lean over the
  regions' values: Proof/Proj0–2.lean, Proof/Grad.lean, Proof/GradB.lean, Proof/Query.lean); the reference's result is
  read one operation at a time (Proof/RefSide.lean).  The two differ only in how sums are grouped (sixteen blocks of 256
  tokens against one sum over 4096; matrix products block by block against whole products), in a zero the running sums
  start from, and in the side the mean's factor `2⁻²²` is multiplied on: commutativity and associativity of `+` and
  commutativity of `·` on the extended reals, with no need of finite inputs.  A change of float format is the identity at
  the exact instance, so the kernel's casts to sixteen bits disappear.  The idealization rewrote nothing, so `preserves`
  is trivial; the two kernels' frames are the generated ones, the reference's frame is its run with the result dropped.
-/
import proofs.«152635_j12223476924503_1_alg».proof.Defs
import proofs.«152635_j12223476924503_1_alg».proof.Proof.Gen.Kernel
import proofs.«152635_j12223476924503_1_alg».proof.Proof.Gen.Kernel.Frame
import proofs.«152635_j12223476924503_1_alg».proof.Proof.Gen.KernelIdeal
import proofs.«152635_j12223476924503_1_alg».proof.Proof.Gen.KernelIdeal.Frame
import proofs.«152635_j12223476924503_1_alg».proof.Proof.Gen.ReferenceIdeal
import proofs.«152635_j12223476924503_1_alg».proof.Proof.Gen.ReferenceIdeal.Run
import proofs.«152635_j12223476924503_1_alg».proof.Proof.Gen.ReferenceIdeal.Read
import proofs.«152635_j12223476924503_1_alg».proof.Proof.Gen.Pre_finite_inputs
import proofs.«152635_j12223476924503_1_alg».proof.Proof.RunNamed
import proofs.«152635_j12223476924503_1_alg».proof.Proof.Chain
import proofs.«152635_j12223476924503_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs, without a fault, and leaves its arguments as they were. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the eight arguments both programs end with the result array at `TTT.G` of them. -/
theorem algebraic : Cert.algebraic_KernelIdeal_ReferenceIdeal := by
  intro m ρ m' ρ' _ hagree
  refine ⟨fun c => TTT.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Val.result_eq m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
